-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x64 : Shape := ⟨3, ![64, 2048, 64]⟩
abbrev S64x4096x12 : Shape := ⟨3, ![64, 4096, 12]⟩
abbrev S_ : Shape := ⟨0, ![]⟩

class Facts : Prop where
  bcast_S_S64x4096x12 : S_.BroadcastsInDim S64x4096x12 (![] : Fin 0 → Fin S64x4096x12.rank)
  reducesTo_S64x4096x12_S_d0_1_2 : S64x4096x12.ReducesTo [0, 1, 2] S_
  h_S_ : 0 < S_.numel
  bcast_S_S64x2048x64 : S_.BroadcastsInDim S64x2048x64 (![] : Fin 0 → Fin S64x2048x64.rank)
  reducesTo_S64x2048x64_S_d0_1_2 : S64x2048x64.ReducesTo [0, 1, 2] S_

variable [Facts]

def fn {F : FTy → Type} [FloatOps F] (main_arg0 : IVec S64x2048x64 32) (main_arg1 : FVec F S64x4096x12 .f32) : IVec S_ 1 :=
  let main_v0 : FVec F S64x4096x12 .f32 := Host.absf main_arg1
  let main_cst : FVec F S_ .f32 := constant S_ .f32 0x7F800000#32
  let main_v1 : FVec F S64x4096x12 .f32 := broadcastInDim S64x4096x12 ![] bcast_S_S64x4096x12 main_cst
  let main_v2 : IVec S64x4096x12 1 := cmpf .olt main_v0 main_v1
  let main_c : IVec S_ 1 := constantI S_ 1 1#1
  let main_v3 : IVec S_ 1 := (fun x v => Host.reduce IntOp.andi x v reducesTo_S64x4096x12_S_d0_1_2 h_S_) main_v2 main_c
  let main_c_0 : IVec S_ 32 := constantI S_ 32 0#32
  let main_v4 : IVec S64x2048x64 32 := broadcastInDim S64x2048x64 ![] bcast_S_S64x2048x64 main_c_0
  let main_v5 : IVec S64x2048x64 1 := cmpi .sge main_arg0 main_v4
  let main_c_1 : IVec S_ 1 := constantI S_ 1 1#1
  let main_v6 : IVec S_ 1 := (fun x v => Host.reduce IntOp.andi x v reducesTo_S64x2048x64_S_d0_1_2 h_S_) main_v5 main_c_1
  let main_v7 : IVec S_ 1 := andi main_v3 main_v6
  let main_c_2 : IVec S_ 32 := constantI S_ 32 4096#32
  let main_v8 : IVec S64x2048x64 32 := broadcastInDim S64x2048x64 ![] bcast_S_S64x2048x64 main_c_2
  let main_v9 : IVec S64x2048x64 1 := cmpi .slt main_arg0 main_v8
  let main_c_3 : IVec S_ 1 := constantI S_ 1 1#1
  let main_v10 : IVec S_ 1 := (fun x v => Host.reduce IntOp.andi x v reducesTo_S64x2048x64_S_d0_1_2 h_S_) main_v9 main_c_3
  let main_v11 : IVec S_ 1 := andi main_v7 main_v10
  main_v11
-- ==== Kernel.lean ====
abbrev S64x2048x64 : Shape := ⟨3, ![64, 2048, 64]⟩
abbrev S64x4096x12 : Shape := ⟨3, ![64, 4096, 12]⟩
abbrev S131072x64 : Shape := ⟨2, ![131072, 64]⟩
abbrev S64x131072 : Shape := ⟨2, ![64, 131072]⟩
abbrev S_ : Shape := ⟨0, ![]⟩
abbrev S64x64x64x12 : Shape := ⟨4, ![64, 64, 64, 12]⟩
abbrev S64x12x64x64 : Shape := ⟨4, ![64, 12, 64, 64]⟩
abbrev S64x768x64 : Shape := ⟨3, ![64, 768, 64]⟩
abbrev S64x12x131072 : Shape := ⟨3, ![64, 12, 131072]⟩
abbrev S64x512 : Shape := ⟨2, ![64, 512]⟩
abbrev S64x12x512 : Shape := ⟨3, ![64, 12, 512]⟩
abbrev S1x512 : Shape := ⟨2, ![1, 512]⟩
abbrev S512 : Shape := ⟨1, ![512]⟩
abbrev S1x768x64 : Shape := ⟨3, ![1, 768, 64]⟩
abbrev S768x64 : Shape := ⟨2, ![768, 64]⟩
abbrev S768x512 : Shape := ⟨2, ![768, 512]⟩
abbrev S12x64x512 : Shape := ⟨3, ![12, 64, 512]⟩
abbrev S1x64x512 : Shape := ⟨3, ![1, 64, 512]⟩
abbrev S12x512 : Shape := ⟨2, ![12, 512]⟩
abbrev S1x12x512 : Shape := ⟨3, ![1, 12, 512]⟩
abbrev S131072x64x12 : Shape := ⟨3, ![131072, 64, 12]⟩
abbrev S64x2048x768 : Shape := ⟨3, ![64, 2048, 768]⟩

abbrev nBuf : Space → Nat
  | .hbm => 54
  | .vmem => 8
  | .smem => 0
  | _ => 0

abbrev bufTy : (tb : Table) → Fin (tcTables nBuf tb) → BufTy
  | .hbm, ⟨0, _⟩ => ⟨S64x2048x64, .i32⟩
  | .hbm, ⟨1, _⟩ => ⟨S64x4096x12, .f32⟩
  | .hbm, ⟨2, _⟩ => ⟨S131072x64, .i32⟩
  | .hbm, ⟨3, _⟩ => ⟨S64x131072, .i32⟩
  | .hbm, ⟨4, _⟩ => ⟨S_, .i32⟩
  | .hbm, ⟨5, _⟩ => ⟨S_, .i32⟩
  | .hbm, ⟨6, _⟩ => ⟨S64x131072, .i32⟩
  | .hbm, ⟨7, _⟩ => ⟨S64x131072, .i32⟩
  | .hbm, ⟨8, _⟩ => ⟨S64x131072, .i32⟩
  | .hbm, ⟨9, _⟩ => ⟨S_, .i32⟩
  | .hbm, ⟨10, _⟩ => ⟨S64x131072, .i32⟩
  | .hbm, ⟨11, _⟩ => ⟨S64x131072, .i1⟩
  | .hbm, ⟨12, _⟩ => ⟨S64x131072, .i32⟩
  | .hbm, ⟨13, _⟩ => ⟨S64x131072, .i32⟩
  | .hbm, ⟨14, _⟩ => ⟨S_, .i32⟩
  | .hbm, ⟨15, _⟩ => ⟨S64x131072, .i32⟩
  | .hbm, ⟨16, _⟩ => ⟨S64x131072, .i1⟩
  | .hbm, ⟨17, _⟩ => ⟨S64x131072, .i1⟩
  | .hbm, ⟨18, _⟩ => ⟨S_, .i32⟩
  | .hbm, ⟨19, _⟩ => ⟨S64x131072, .i32⟩
  | .hbm, ⟨20, _⟩ => ⟨S64x131072, .i32⟩
  | .hbm, ⟨21, _⟩ => ⟨S64x131072, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S64x131072, .i32⟩
  | .hbm, ⟨29, _⟩ => ⟨S64x131072, .i32⟩
  | .hbm, ⟨30, _⟩ => ⟨S_, .i32⟩
  | .hbm, ⟨31, _⟩ => ⟨S64x131072, .i32⟩
  | .hbm, ⟨32, _⟩ => ⟨S64x131072, .i1⟩
  | .hbm, ⟨33, _⟩ => ⟨S_, .i32⟩
  | .hbm, ⟨34, _⟩ => ⟨S64x131072, .i32⟩
  | .hbm, ⟨35, _⟩ => ⟨S64x131072, .i1⟩
  | .hbm, ⟨36, _⟩ => ⟨S_, .i32⟩
  | .hbm, ⟨37, _⟩ => ⟨S_, .i1⟩
  | .hbm, ⟨38, _⟩ => ⟨S64x131072, .i1⟩
  | .hbm, ⟨39, _⟩ => ⟨S64x131072, .i1⟩
  | .hbm, ⟨40, _⟩ => ⟨S64x131072, .i1⟩
  | .hbm, ⟨41, _⟩ => ⟨S64x131072, .i32⟩
  | .hbm, ⟨42, _⟩ => ⟨S64x131072, .i32⟩
  | .hbm, ⟨43, _⟩ => ⟨S64x131072, .i32⟩
  | .hbm, ⟨44, _⟩ => ⟨S64x64x64x12, .f32⟩
  | .hbm, ⟨45, _⟩ => ⟨S64x12x64x64, .f32⟩
  | .hbm, ⟨46, _⟩ => ⟨S64x768x64, .f32⟩
  | .hbm, ⟨47, _⟩ => ⟨S64x768x64, .bf16⟩
  | .hbm, ⟨48, _⟩ => ⟨S64x768x64, .f32⟩
  | .hbm, ⟨49, _⟩ => ⟨S64x768x64, .f32⟩
  | .hbm, ⟨50, _⟩ => ⟨S64x768x64, .bf16⟩
  | .hbm, ⟨51, _⟩ => ⟨S64x12x131072, .f32⟩
  | .hbm, ⟨52, _⟩ => ⟨S131072x64x12, .f32⟩
  | .hbm, ⟨53, _⟩ => ⟨S64x2048x768, .f32⟩
  | .local _ .vmem, ⟨0, _⟩ => ⟨S64x512, .i32⟩
  | .local _ .vmem, ⟨1, _⟩ => ⟨S64x512, .i32⟩
  | .local _ .vmem, ⟨2, _⟩ => ⟨S64x512, .i32⟩
  | .local _ .vmem, ⟨3, _⟩ => ⟨S64x512, .i32⟩
  | .local _ .vmem, ⟨4, _⟩ => ⟨S64x768x64, .bf16⟩
  | .local _ .vmem, ⟨5, _⟩ => ⟨S64x768x64, .bf16⟩
  | .local _ .vmem, ⟨6, _⟩ => ⟨S64x12x512, .f32⟩
  | .local _ .vmem, ⟨7, _⟩ => ⟨S64x12x512, .f32⟩
  | _, _ => ⟨S64x2048x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![256], ![false]⟩

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_off1 (k0_t1 : Fin k0_t1_loop.trips) : Fin 2 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v2 : BitVec 32 := Scalar.muli arg6 c1_i32_1
  let v3 : BitVec 32 := Scalar.addi c0_i32_2 v2
  let v4 : Index := Scalar.indexCast v3
  let c0 : Index := 0#32
  ![v4.toNat, 0]
def k0_off2 (k0_t1 : Fin k0_t1_loop.trips) : Fin 3 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v2 : BitVec 32 := Scalar.muli arg6 c1_i32_1
  let v3 : BitVec 32 := Scalar.addi c0_i32_2 v2
  let v21 : Index := Scalar.indexCast v3
  let c0_4 : Index := 0#32
  let c0_5 : Index := 0#32
  ![v21.toNat, 0, 0]
def k0_off3 (k0_t1 : Fin k0_t1_loop.trips) : Fin 3 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v2 : BitVec 32 := Scalar.muli arg6 c1_i32_1
  let v3 : BitVec 32 := Scalar.addi c0_i32_2 v2
  let v35 : Index := Scalar.indexCast v3
  let c0_10 : Index := 0#32
  let c0_11 : Index := 0#32
  ![v35.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S64x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x768x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x768x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x12x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x2048x64_S131072x64 : S64x2048x64.ShapeCasts S131072x64
  transposes_S131072x64_S64x131072_1_0 : S131072x64.Transposes [1, 0] S64x131072
  bcast_S_S64x131072 : S_.BroadcastsInDim S64x131072 (![] : Fin 0 → Fin S64x131072.rank)
  shapeCasts_S64x4096x12_S64x64x64x12 : S64x4096x12.ShapeCasts S64x64x64x12
  transposes_S64x64x64x12_S64x12x64x64_0_3_2_1 : S64x64x64x12.Transposes [0, 3, 2, 1] S64x12x64x64
  shapeCasts_S64x12x64x64_S64x768x64 : S64x12x64x64.ShapeCasts S64x768x64
  bitsLt_bf16_f32 : FTy.bits .bf16 < FTy.bits .f32
  iota_S64x512_d0_w32 : S64x512.Iotas .tc 32 [0]
  h_S1x512 : 0 < S1x512.numel
  shapeCasts_S1x512_S512 : S1x512.ShapeCasts S512
  shapeCasts_S512_S1x512 : S512.ShapeCasts S1x512
  broadcasts_S1x512_S64x512 : S1x512.Broadcasts S64x512
  natLt_1_32 : 1 < 32
  h_S1x768x64 : 0 < S1x768x64.numel
  shapeCasts_S1x768x64_S768x64 : S1x768x64.ShapeCasts S768x64
  shapeCasts_S768x512_S12x64x512 : S768x512.ShapeCasts S12x64x512
  shapeCasts_S64x512_S1x64x512 : S64x512.ShapeCasts S1x64x512
  broadcasts_S1x64x512_S12x64x512 : S1x64x512.Broadcasts S12x64x512
  reduces_S12x64x512_S12x512 : S12x64x512.Reduces [1] S12x512
  h_S1x12x512 : 0 < S1x12x512.numel
  shapeCasts_S1x12x512_S12x512 : S1x12x512.ShapeCasts S12x512
  shapeCasts_S12x512_S1x12x512 : S12x512.ShapeCasts S1x12x512
  transposes_S64x12x131072_S131072x64x12_2_0_1 : S64x12x131072.Transposes [2, 0, 1] S131072x64x12
  shapeCasts_S131072x64x12_S64x2048x768 : S131072x64x12.ShapeCasts S64x2048x768
  dot_S768x64_S64x512_S768x512_1_0_0_1_n_n_wf : DotDims.WF S768x64 S64x512 S768x512 [1] [0] [0] [1] [] []
  hrank0 : 0 < grid0.rank
  k0_t1_ok : k0_t1_loop.OK
  k0_off1_inb : ∀ k0_t1 : Fin k0_t1_loop.trips, ∀ a, (k0_off1 k0_t1) a + S1x512.size a ≤ S64x512.size a
  k0_off2_inb : ∀ k0_t1 : Fin k0_t1_loop.trips, ∀ a, (k0_off2 k0_t1) a + S1x768x64.size a ≤ S64x768x64.size a
  k0_off3_inb : ∀ k0_t1 : Fin k0_t1_loop.trips, ∀ a, (k0_off3 k0_t1) a + S1x12x512.size a ≤ S64x12x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x131072.size a
  hwx0_0 : ∀ i : grid0.Coords, EltTy.bits .i32 = 32 ∨ (Rect.block (s := S64x131072) S64x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x131072.size a
  hwx0_1 : ∀ i : grid0.Coords, EltTy.bits .i32 = 32 ∨ (Rect.block (s := S64x131072) S64x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x768x64.size a ≤ S64x768x64.size a
  hwx0_2 : ∀ i : grid0.Coords, EltTy.bits .bf16 = 32 ∨ (Rect.block (s := S64x768x64) S64x768x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x768x64.size a ≤ S64x768x64.size a
  hwx0_3 : ∀ i : grid0.Coords, EltTy.bits .bf16 = 32 ∨ (Rect.block (s := S64x768x64) S64x768x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x12x512.size a ≤ S64x12x131072.size a
  hwx0_4 : ∀ i : grid0.Coords, EltTy.bits .f32 = 32 ∨ (Rect.block (s := S64x12x131072) S64x12x512.size (cc0_transform_4 i) (hinb0_4 i)).WholeWords (EltTy.packing .f32)

variable [Facts₀]

def dot_S768x64_S64x512_S768x512_1_0_0_1_n_n : DotDims S768x64 S64x512 S768x512 where
  lhsContracting := [1]
  rhsContracting := [0]
  lhsNonContracting := [0]
  rhsNonContracting := [1]
  lhsBatch := []
  rhsBatch := []
  wf := dot_S768x64_S64x512_S768x512_1_0_0_1_n_n_wf

abbrev win0_0 : Pipeline.Window sig grid0 :=
  Pipeline.Window.ofSpec (Memref.whole main_v2) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x768x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S64x768x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x12x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x2048x64 : Shape := ⟨3, ![64, 2048, 64]⟩
abbrev S64x4096x12 : Shape := ⟨3, ![64, 4096, 12]⟩
abbrev S64 : Shape := ⟨1, ![64]⟩
abbrev S1x1x64 : Shape := ⟨3, ![1, 1, 64]⟩
abbrev S_ : Shape := ⟨0, ![]⟩
abbrev S64x2048x64x1 : Shape := ⟨4, ![64, 2048, 64, 1]⟩
abbrev S64x2048x64x2 : Shape := ⟨4, ![64, 2048, 64, 2]⟩
abbrev S64x2048x64x12 : Shape := ⟨4, ![64, 2048, 64, 12]⟩
abbrev S64x2048x768 : Shape := ⟨3, ![64, 2048, 768]⟩

abbrev nBuf : Space → Nat
  | .hbm => 24
  | .vmem => 0
  | .smem => 0
  | _ => 0

abbrev bufTy : (tb : Table) → Fin (tcTables nBuf tb) → BufTy
  | .hbm, ⟨0, _⟩ => ⟨S64x2048x64, .i32⟩
  | .hbm, ⟨1, _⟩ => ⟨S64x4096x12, .f32⟩
  | .hbm, ⟨2, _⟩ => ⟨S64, .i32⟩
  | .hbm, ⟨3, _⟩ => ⟨S1x1x64, .i32⟩
  | .hbm, ⟨4, _⟩ => ⟨S_, .i32⟩
  | .hbm, ⟨5, _⟩ => ⟨S1x1x64, .i32⟩
  | .hbm, ⟨6, _⟩ => ⟨S1x1x64, .i1⟩
  | .hbm, ⟨7, _⟩ => ⟨S_, .i32⟩
  | .hbm, ⟨8, _⟩ => ⟨S1x1x64, .i32⟩
  | .hbm, ⟨9, _⟩ => ⟨S1x1x64, .i32⟩
  | .hbm, ⟨10, _⟩ => ⟨S1x1x64, .i32⟩
  | .hbm, ⟨11, _⟩ => ⟨S_, .i32⟩
  | .hbm, ⟨12, _⟩ => ⟨S64x2048x64, .i32⟩
  | .hbm, ⟨13, _⟩ => ⟨S64x2048x64, .i1⟩
  | .hbm, ⟨14, _⟩ => ⟨S_, .i32⟩
  | .hbm, ⟨15, _⟩ => ⟨S64x2048x64, .i32⟩
  | .hbm, ⟨16, _⟩ => ⟨S64x2048x64, .i32⟩
  | .hbm, ⟨17, _⟩ => ⟨S64x2048x64, .i32⟩
  | .hbm, ⟨18, _⟩ => ⟨S64x2048x64, .i32⟩
  | .hbm, ⟨19, _⟩ => ⟨S64x2048x64x1, .i32⟩
  | .hbm, ⟨20, _⟩ => ⟨S64x2048x64x1, .i32⟩
  | .hbm, ⟨21, _⟩ => ⟨S64x2048x64x2, .i32⟩
  | .hbm, ⟨22, _⟩ => ⟨S64x2048x64x12, .f32⟩
  | .hbm, ⟨23, _⟩ => ⟨S64x2048x768, .f32⟩
  | _, _ => ⟨S64x2048x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S_S1x1x64 : S_.BroadcastsInDim S1x1x64 (![] : Fin 0 → Fin S1x1x64.rank)
  bcast_S_S64x2048x64 : S_.BroadcastsInDim S64x2048x64 (![] : Fin 0 → Fin S64x2048x64.rank)
  bcast_S1x1x64_S64x2048x64_0_1_2 : S1x1x64.BroadcastsInDim S64x2048x64 (![0, 1, 2] : Fin 3 → Fin S64x2048x64.rank)
  bcast_S64x2048x64_S64x2048x64x1_0_1_2 : S64x2048x64.BroadcastsInDim S64x2048x64x1 (![0, 1, 2] : Fin 3 → Fin S64x2048x64x1.rank)
  concatenates_S64x2048x64x1_S64x2048x64x1_S64x2048x64x2_d3 : Shape.Concatenates [S64x2048x64x1, S64x2048x64x1] S64x2048x64x2 3
  shapeCasts_S64x2048x64x12_S64x2048x768 : S64x2048x64x12.ShapeCasts S64x2048x768
  gather_S64x4096x12_S64x2048x64x2_S64x2048x64x12_3_01_n_n_01_3_1112_wf : GatherDims.WF S64x4096x12 S64x2048x64x2 S64x2048x64x12 [3] [0, 1] [] [0, 1] [] 3 ![1, 1, 12]

variable [Facts₀]

def gather_S64x4096x12_S64x2048x64x2_S64x2048x64x12_3_01_n_n_01_3_1112 : GatherDims S64x4096x12 S64x2048x64x2 S64x2048x64x12 where
  offsetDims := [3]
  collapsedSliceDims := [0, 1]
  operandBatchingDims := []
  startIndicesBatchingDims := []
  startIndexMap := [0, 1]
  indexVectorDim := 3
  sliceSizes := ![1, 1, 12]
  wf := gather_S64x4096x12_S64x2048x64x2_S64x2048x64x12_3_01_n_n_01_3_1112_wf

class Facts : Prop extends Facts₀ where

variable [Facts]
-- ==== Proof.PreFacts.lean ====
/-
  What the precondition says of the inputs: every codebook value is a real number, and every index word, read as a
  natural number, is below the codebook size 4096 (it is at least 0 and below 4096 as a signed number).
-/
import proofs.«400585_j86663850098809_3_alg».proof.Pre_finite_inputs
import proofs.«400585_j86663850098809_3_alg».proof.Proof.Gen.Pre_finite_inputs
import Idealize.ShloMosaic.PureOps.Ideal
import Idealize.ShloMosaic.Lib.ReduceAll
import Idealize.ShloMosaic.Lib.StableHlo.Predicate

noncomputable section

namespace Cert.PreFacts

open Idealize.ShloMosaic

/-- The rank-0 shape has one index. -/
instance : Subsingleton Cert.Pre_finite_inputs.S_.Idx := ⟨fun _ _ => funext fun d => d.elim0⟩

/-- A 32-bit word that is at least 0 and below 4096 as a signed number has its top bit clear, so its value as a natural
    number is the same and is below 4096. -/
theorem toNat_lt_of_signed (w : BitVec 32) (h0 : IntOp.cmpi .sge w 0#32 = 1#1) (h1 : IntOp.cmpi .slt w 4096#32 = 1#1) :
    w.toNat < 4096 := by
  have hs : w.toNat < 2 ^ 31 := by
    unfold IntOp.cmpi at h0
    rw [StableHlo.Predicate.ofBool_eq_one_iff] at h0
    simp only [BitVec.sle, decide_eq_true_eq] at h0
    have h32 := w.isLt
    have hz : (0#32 : BitVec 32).toInt = 0 := by decide
    rw [hz, BitVec.toInt_eq_toNat_cond] at h0
    split at h0 <;> omega
  have h := (StableHlo.Predicate.slt_iff_toNat hs (by decide)).1 h1
  simpa using h

/-- An extended real whose absolute value max x (-x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- From the precondition all ones: the values are finite and the indices are in range. -/
theorem decode [Cert.Pre_finite_inputs.Facts] (idx : IVec ⟨3, ![64, 2048, 64]⟩ 32)
    (vals : FVec Ideal ⟨3, ![64, 4096, 12]⟩ .f32)
    (h : Cert.Pre_finite_inputs.fn (F := Ideal) idx vals = fun _ => 1#1) :
    (∀ i, ∃ r : ℝ, vals i = (r : EReal)) ∧ (∀ j, (idx j).toNat < 4096) := by
  have e := congrFun h (fun a => a.elim0)
  unfold Cert.Pre_finite_inputs.fn at e
  dsimp only [andi] at e
  obtain ⟨e12, e3⟩ := IntOp.andi_eq_one.1 e
  obtain ⟨e1, e2⟩ := IntOp.andi_eq_one.1 e12
  refine ⟨fun i => ?_, fun j => ?_⟩
  · have hi := Host.reduce_andi_all _ _ _ _ _ e1 i
    have htop : Ideal.ofBits .f32 0x7F800000#32 = (⊤ : EReal) := by simp [Ideal.ofBits, Ideal.ieee]
    change Ideal.cmp .olt (max (vals i) (-(vals i))) (Ideal.ofBits .f32 0x7F800000#32) = 1#1 at hi
    rw [htop] at hi
    unfold Ideal.cmp at hi
    rw [StableHlo.Predicate.ofBool_eq_one_iff] at hi
    exact real_of_abs_lt_top _ (of_decide_eq_true hi)
  · have h0 := Host.reduce_andi_all _ _ _ _ _ e2 j
    have h1 := Host.reduce_andi_all _ _ _ _ _ e3 j
    exact toNat_lt_of_signed _ h0 h1

end Cert.PreFacts

end
-- ==== Proof.BlockOut.lean ====
/-
  What one grid point leaves in the output block. The body is a loop over the 64 heads; trip k stores, at rows
  (k, ·, ·) of the block, the head's arithmetic applied to row k of the two digit blocks and slab k of the two table
  blocks. The stores tile the block, so the block is ONE function of its index (head, feature, lane): the head's
  arithmetic on that head's rows, read at (feature, lane).
-/
import proofs.«400585_j86663850098809_3_alg».proof.Proof.Gen.KernelIdeal.Frame
import Idealize.ShloMosaic.Lib.ValueIdx
import Idealize.ShloMosaic.Lib.Writes
import Idealize.ShloMosaic.Lib.Pipeline.Value

set_option maxRecDepth 16384

noncomputable section

namespace Cert.KernelIdeal.Block

open Cert.KernelIdeal Cert.KernelIdeal.Gen Idealize.ShloMosaic Idealize.ShloMosaic.TcCoe Idealize.ShloMosaic.ValueIdx
open Idealize.SL.Sem

variable {F : FTy → Type} [FloatOps F]

/-- Trip k reads and writes at row k of each buffer, from column 0. -/
theorem off_facts : ∀ k : Fin k0_t1_loop.trips,
    k0_off1 k 0 = k.val ∧ k0_off1 k 1 = 0 ∧ k0_off2 k 0 = k.val ∧ k0_off2 k 1 = 0 ∧ k0_off2 k 2 = 0
      ∧ k0_off3 k 0 = k.val ∧ k0_off3 k 1 = 0 ∧ k0_off3 k 2 = 0 := by decide +kernel

/-- The block as a function of its index: head y 0's arithmetic on that head's rows, at (y 1, y 2). -/
def blockOut (x0 x1 : Vec F S64x512 .i32) (x2 x3 : Vec F S64x768x64 .bf16) : Vec F S64x12x512 .f32 := fun y =>
  k0_pay1 (fun j => x0 (ix2 (y 0) (j 1))) (fun j => x1 (ix2 (y 0) (j 1)))
    (fun j => x2 (ix3 (y 0) (j 1) (j 2))) (fun j => x3 (ix3 (y 0) (j 1) (j 2))) (ix3 (0 : Fin 1) (y 1) (y 2))

/-- The run's pieces are the pieces of all the trips. -/
theorem run_pieces (c : Dev nD) (i : grid0.Coords) (arg1 : Memref sig .tc .vmem S64x512 .i32) (harg1 : arg1.IsWhole) (arg2 : Memref sig .tc .vmem S64x512 .i32) (harg2 : arg2.IsWhole) (arg3 : Memref sig .tc .vmem S64x768x64 .bf16) (harg3 : arg3.IsWhole) (arg4 : Memref sig .tc .vmem S64x768x64 .bf16) (harg4 : arg4.IsWhole) (arg5 : Memref sig .tc .vmem S64x12x512 .f32) (harg5 : arg5.IsWhole)
    (x0 x1 : Vec F S64x512 .i32) (x2 x3 : Vec F S64x768x64 .bf16) :
    (kernelRun0_A c i arg1 harg1 arg2 harg2 arg3 harg3 arg4 harg4 arg5 harg5 x0 x1 x2 x3).1
      = pb_k0_t1 (F := F) Variants.none c none i arg1 harg1 arg2 harg2 arg3 harg3 arg4 harg4 arg5 harg5
          (harg1.unread x0) (harg2.unread x1) (harg3.unread x2) (harg4.unread x3) k0_t1_loop.trips := by
  unfold kernelRun0_A
  rfl

/-- One trip leaves one piece: at rows (k, ·, ·), the head's arithmetic on what it loaded. -/
theorem trip_piece (𝒱 : Variants) (bd : Option 𝒱.V) (c : Dev nD) (i : grid0.Coords) (arg1 : Memref sig .tc .vmem S64x512 .i32) (harg1 : arg1.IsWhole) (arg2 : Memref sig .tc .vmem S64x512 .i32) (harg2 : arg2.IsWhole) (arg3 : Memref sig .tc .vmem S64x768x64 .bf16) (harg3 : arg3.IsWhole) (arg4 : Memref sig .tc .vmem S64x768x64 .bf16) (harg4 : arg4.IsWhole) (arg5 : Memref sig .tc .vmem S64x12x512 .f32) (harg5 : arg5.IsWhole)
    (X1 : BufTy.Contents (Elt F) arg1.view.ty) (X2 : BufTy.Contents (Elt F) arg2.view.ty)
    (X3 : BufTy.Contents (Elt F) arg3.view.ty) (X4 : BufTy.Contents (Elt F) arg4.view.ty) (k : Fin k0_t1_loop.trips) :
    tripL_k0_t1 (F := F) 𝒱 c bd i arg1 harg1 arg2 harg2 arg3 harg3 arg4 harg4 arg5 harg5 X1 X2 X3 X4 k
      = [⟨Rect.unit (s := S64x12x512) (k0_off3 k) S1x12x512.size (k0_off3_inb k),
          k0_pay1 (View.readAt (Elt F) arg1.view (Rect.unit (s := S64x512) (k0_off1 k) S1x512.size (k0_off1_inb k)).toLoadRect X1)
            (View.readAt (Elt F) arg2.view (Rect.unit (s := S64x512) (k0_off1 k) S1x512.size (k0_off1_inb k)).toLoadRect X2)
            (View.readAt (Elt F) arg3.view (Rect.unit (s := S64x768x64) (k0_off2 k) S1x768x64.size (k0_off2_inb k)).toLoadRect X3)
            (View.readAt (Elt F) arg4.view (Rect.unit (s := S64x768x64) (k0_off2 k) S1x768x64.size (k0_off2_inb k)).toLoadRect X4)⟩] := by
  unfold tripL_k0_t1 trip_k0_t1
  rfl

/-- The row of the first digit block a trip loads is that head's row. -/
theorem row_read (m1 : Memref sig .tc .vmem S64x512 .i32) (h1 : m1.IsWhole) (x : Vec F S64x512 .i32)
    (k : Fin k0_t1_loop.trips) (y0 : Fin 64) (hy : y0.val = k.val) :
    View.readAt (Elt F) m1.view (Rect.unit (s := S64x512) (k0_off1 k) S1x512.size (k0_off1_inb k)).toLoadRect (h1.unread x)
      = fun j => x (ix2 y0 (j 1)) := by
  rw [View.readAt_eq_ld, h1.read_unread]
  funext j
  show x ((Rect.unit (s := S64x512) (k0_off1 k) S1x512.size (k0_off1_inb k)).idx j) = _
  congr 1
  funext a
  obtain ⟨e0, e1, -⟩ := off_facts k
  match a with
  | ⟨0, _⟩ =>
    refine Fin.ext ?_
    show k0_off1 k 0 + 1 * (j 0).val = y0.val
    have : (j 0).val < 1 := (j 0).isLt
    omega
  | ⟨1, _⟩ =>
    refine Fin.ext ?_
    show k0_off1 k 1 + 1 * (j 1).val = (j 1).val
    omega

/-- The slab of a table block a trip loads is that head's slab. -/
theorem slab_read (m1 : Memref sig .tc .vmem S64x768x64 .bf16) (h1 : m1.IsWhole) (x : Vec F S64x768x64 .bf16)
    (k : Fin k0_t1_loop.trips) (y0 : Fin 64) (hy : y0.val = k.val) :
    View.readAt (Elt F) m1.view (Rect.unit (s := S64x768x64) (k0_off2 k) S1x768x64.size (k0_off2_inb k)).toLoadRect (h1.unread x)
      = fun j => x (ix3 y0 (j 1) (j 2)) := by
  rw [View.readAt_eq_ld, h1.read_unread]
  funext j
  show x ((Rect.unit (s := S64x768x64) (k0_off2 k) S1x768x64.size (k0_off2_inb k)).idx j) = _
  congr 1
  funext a
  obtain ⟨-, -, e0, e1, e2, -⟩ := off_facts k
  match a with
  | ⟨0, _⟩ =>
    refine Fin.ext ?_
    show k0_off2 k 0 + 1 * (j 0).val = y0.val
    have : (j 0).val < 1 := (j 0).isLt
    omega
  | ⟨1, _⟩ =>
    refine Fin.ext ?_
    show k0_off2 k 1 + 1 * (j 1).val = (j 1).val
    omega
  | ⟨2, _⟩ =>
    refine Fin.ext ?_
    show k0_off2 k 2 + 1 * (j 2).val = (j 2).val
    omega

/-- Trip k's piece is the block function on its rows. -/
theorem piece_ok (c : Dev nD) (i : grid0.Coords) (arg1 : Memref sig .tc .vmem S64x512 .i32) (harg1 : arg1.IsWhole) (arg2 : Memref sig .tc .vmem S64x512 .i32) (harg2 : arg2.IsWhole) (arg3 : Memref sig .tc .vmem S64x768x64 .bf16) (harg3 : arg3.IsWhole) (arg4 : Memref sig .tc .vmem S64x768x64 .bf16) (harg4 : arg4.IsWhole) (arg5 : Memref sig .tc .vmem S64x12x512 .f32) (harg5 : arg5.IsWhole)
    (x0 x1 : Vec F S64x512 .i32) (x2 x3 : Vec F S64x768x64 .bf16) (k : Fin k0_t1_loop.trips)
    (x : (Rect.unit (s := S64x12x512) (k0_off3 k) S1x12x512.size (k0_off3_inb k)).shape.Idx) :
    k0_pay1 (View.readAt (Elt F) arg1.view (Rect.unit (s := S64x512) (k0_off1 k) S1x512.size (k0_off1_inb k)).toLoadRect (harg1.unread x0)) (View.readAt (Elt F) arg2.view (Rect.unit (s := S64x512) (k0_off1 k) S1x512.size (k0_off1_inb k)).toLoadRect (harg2.unread x1))
        (View.readAt (Elt F) arg3.view (Rect.unit (s := S64x768x64) (k0_off2 k) S1x768x64.size (k0_off2_inb k)).toLoadRect (harg3.unread x2)) (View.readAt (Elt F) arg4.view (Rect.unit (s := S64x768x64) (k0_off2 k) S1x768x64.size (k0_off2_inb k)).toLoadRect (harg4.unread x3)) x
      = blockOut x0 x1 x2 x3 ((Rect.unit (s := S64x12x512) (k0_off3 k) S1x12x512.size (k0_off3_inb k)).emb x) := by
  obtain ⟨-, -, -, -, -, e0, e1, e2⟩ := off_facts k
  have hx0 : (x 0).val = 0 := by have : (x 0).val < 1 := (x 0).isLt; omega
  have hy : ((Rect.unit (s := S64x12x512) (k0_off3 k) S1x12x512.size (k0_off3_inb k)).emb x 0).val = k.val := by
    show k0_off3 k 0 + 1 * (x 0).val = k.val; omega
  unfold blockOut
  rw [row_read arg1 harg1 x0 k ((Rect.unit (s := S64x12x512) (k0_off3 k) S1x12x512.size (k0_off3_inb k)).emb x 0) hy, row_read arg2 harg2 x1 k ((Rect.unit (s := S64x12x512) (k0_off3 k) S1x12x512.size (k0_off3_inb k)).emb x 0) hy,
    slab_read arg3 harg3 x2 k ((Rect.unit (s := S64x12x512) (k0_off3 k) S1x12x512.size (k0_off3_inb k)).emb x 0) hy, slab_read arg4 harg4 x3 k ((Rect.unit (s := S64x12x512) (k0_off3 k) S1x12x512.size (k0_off3_inb k)).emb x 0) hy]
  congr 1
  funext a
  match a with
  | ⟨0, _⟩ => exact Fin.ext hx0
  | ⟨1, _⟩ =>
    refine Fin.ext ?_
    show (x 1).val = k0_off3 k 1 + 1 * (x 1).val
    omega
  | ⟨2, _⟩ =>
    refine Fin.ext ?_
    show (x 2).val = k0_off3 k 2 + 1 * (x 2).val
    omega

/-- Every piece of the trips before n is the block function on its rows. -/
theorem pieces_agree (c : Dev nD) (i : grid0.Coords) (arg1 : Memref sig .tc .vmem S64x512 .i32) (harg1 : arg1.IsWhole) (arg2 : Memref sig .tc .vmem S64x512 .i32) (harg2 : arg2.IsWhole) (arg3 : Memref sig .tc .vmem S64x768x64 .bf16) (harg3 : arg3.IsWhole) (arg4 : Memref sig .tc .vmem S64x768x64 .bf16) (harg4 : arg4.IsWhole) (arg5 : Memref sig .tc .vmem S64x12x512 .f32) (harg5 : arg5.IsWhole)
    (x0 x1 : Vec F S64x512 .i32) (x2 x3 : Vec F S64x768x64 .bf16) :
    ∀ n, n ≤ k0_t1_loop.trips →
      ∀ p ∈ pb_k0_t1 (F := F) Variants.none c none i arg1 harg1 arg2 harg2 arg3 harg3 arg4 harg4 arg5 harg5 (harg1.unread x0) (harg2.unread x1) (harg3.unread x2) (harg4.unread x3) n,
        ∀ x : p.1.shape.Idx, p.2 x = blockOut x0 x1 x2 x3 (p.1.emb x)
  | 0, _, p, hp, _ => by
    rw [pb_k0_t1.eq_1] at hp
    exact absurd hp List.not_mem_nil
  | n + 1, hn, p, hp, x => by
    have hk : n < k0_t1_loop.trips := hn
    have hs := pb_k0_t1_succ (F := F) Variants.none c none i arg1 harg1 arg2 harg2 arg3 harg3 arg4 harg4 arg5 harg5 (harg1.unread x0) (harg2.unread x1) (harg3.unread x2) (harg4.unread x3) ⟨n, hk⟩
    rw [show (⟨n, hk⟩ : Fin k0_t1_loop.trips).val + 1 = n + 1 from rfl] at hs
    rw [hs, trip_piece] at hp
    rcases List.mem_append.mp hp with h | h
    · obtain rfl := List.mem_singleton.mp h
      exact piece_ok c i arg1 harg1 arg2 harg2 arg3 harg3 arg4 harg4 arg5 harg5 x0 x1 x2 x3 ⟨n, hk⟩ x
    · exact pieces_agree c i arg1 harg1 arg2 harg2 arg3 harg3 arg4 harg4 arg5 harg5 x0 x1 x2 x3 n (Nat.le_of_lt hk) p h x

/-- The output block after the body: the block function of the four input blocks. -/
theorem out_eq (c : Dev nD) (i : grid0.Coords) (arg1 : Memref sig .tc .vmem S64x512 .i32) (harg1 : arg1.IsWhole) (arg2 : Memref sig .tc .vmem S64x512 .i32) (harg2 : arg2.IsWhole) (arg3 : Memref sig .tc .vmem S64x768x64 .bf16) (harg3 : arg3.IsWhole) (arg4 : Memref sig .tc .vmem S64x768x64 .bf16) (harg4 : arg4.IsWhole) (arg5 : Memref sig .tc .vmem S64x12x512 .f32) (harg5 : arg5.IsWhole)
    (x0 x1 : Vec F S64x512 .i32) (x2 x3 : Vec F S64x768x64 .bf16) :
    out0_A_4 c i arg1 harg1 arg2 harg2 arg3 harg3 arg4 harg4 arg5 harg5 x0 x1 x2 x3 = blockOut x0 x1 x2 x3 := by
  funext y
  unfold out0_A_4
  refine View.read_writes_apply_of_pieces VO0_4 VO0_4.junk (blockOut x0 x1 x2 x3) _ ?_ y
    (cover0_A_4 c i arg1 harg1 arg2 harg2 arg3 harg3 arg4 harg4 arg5 harg5 x0 x1 x2 x3 y)
  rw [run_pieces]
  exact pieces_agree c i arg1 harg1 arg2 harg2 arg3 harg3 arg4 harg4 arg5 harg5 x0 x1 x2 x3 k0_t1_loop.trips (Nat.le_refl _)

end Cert.KernelIdeal.Block

end
-- ==== Proof.LibWordDiv.lean ====
/-
  Signed 32-bit word arithmetic on non-negative words.

  A word below 2³¹ is non-negative as a signed number, and on such words (with a positive divisor below 2³¹) the
  signed quotient and remainder are the quotient and remainder of the values as natural numbers. jnp's floor
  division and remainder are the truncated ones followed by a correction that applies only when signs differ; on
  non-negative words the correction never applies, so they too are the natural-number quotient and remainder.
  The same holds for the wrap of a negative index (nothing to wrap), the clip below at zero (nothing to clip) and
  the comparison of a position with a total (the comparison of the values).
-/
import Idealize.ShloMosaic.PureOps.Vector
import Idealize.ShloMosaic.PureOps.ShapeOps
import Idealize.ShloMosaic.Lib.StableHlo.Predicate

namespace Cert.LibWordDiv

open Idealize.ShloMosaic
open Idealize.ShloMosaic.StableHlo.Predicate (slt_iff_toNat sge_iff_toNat cmpi_eq_iff ofBool_eq_one_iff)

/-! ## Words -/

/-- A word below 2³¹ has its top bit clear. -/
theorem msb_false_of_lt {a : BitVec 32} (ha : a.toNat < 2 ^ 31) : a.msb = false :=
  BitVec.msb_eq_false_iff_two_mul_lt.mpr (by omega)

/-- Selecting on the zero bit takes the second branch. -/
theorem select_zero {α : Type} (a b : α) : Scalar.select 0#1 a b = b := by
  simp [Scalar.select]

/-- Selecting on the one bit takes the first branch. -/
theorem select_one {α : Type} (a b : α) : Scalar.select 1#1 a b = a := by
  simp [Scalar.select]

/-- A positive divisor below 2³¹ and a dividend below 2³¹ are not at the signed-division corner. -/
theorem not_corner (v d : BitVec 32) (hd0 : 0 < d.toNat) (hd : d.toNat < 2 ^ 31) : ¬ IntOp.SDivCorner v d := by
  rintro (hc | ⟨_, hc⟩)
  · rw [hc] at hd0; simp at hd0
  · rw [hc] at hd; revert hd; decide

/-- Signed division of a word below 2³¹ by a positive word below 2³¹ is the quotient of the values. -/
theorem divsi_host_eq (v d : BitVec 32) (hv : v.toNat < 2 ^ 31) (hd0 : 0 < d.toNat) (hd : d.toNat < 2 ^ 31) :
    IntOp.divsi .host v d = BitVec.ofNat 32 (v.toNat / d.toNat) := by
  have hle : v.toNat / d.toNat ≤ v.toNat := Nat.div_le_self _ _
  simp only [IntOp.divsi, if_neg (not_corner v d hd0 hd), BitVec.sdiv_eq, msb_false_of_lt hv, msb_false_of_lt hd,
    BitVec.udiv_eq]
  apply BitVec.eq_of_toNat_eq
  rw [BitVec.toNat_udiv, BitVec.toNat_ofNat, Nat.mod_eq_of_lt (by omega)]

/-- Signed remainder of a word below 2³¹ by a positive word below 2³¹ is the remainder of the values. -/
theorem remsi_host_eq (v d : BitVec 32) (hv : v.toNat < 2 ^ 31) (hd0 : 0 < d.toNat) (hd : d.toNat < 2 ^ 31) :
    IntOp.remsi .host v d = BitVec.ofNat 32 (v.toNat % d.toNat) := by
  have hlt : v.toNat % d.toNat < d.toNat := Nat.mod_lt _ hd0
  simp only [IntOp.remsi, if_neg (not_corner v d hd0 hd), BitVec.srem_eq, msb_false_of_lt hv, msb_false_of_lt hd,
    BitVec.umod_eq]
  apply BitVec.eq_of_toNat_eq
  rw [BitVec.toNat_umod, BitVec.toNat_ofNat, Nat.mod_eq_of_lt (a := v.toNat % d.toNat) (b := 2 ^ 32) (by omega)]

/-- The sign word of a word: 0 for zero, −1 for a negative word, 1 for a positive one. -/
def signW (x : BitVec 32) : BitVec 32 := if x = 0 then 0 else if x.msb then -1 else 1

/-- The sign word of a positive word below 2³¹ is 1. -/
theorem signW_pos (x : BitVec 32) (h0 : 0 < x.toNat) (h : x.toNat < 2 ^ 31) : signW x = 1 := by
  have hx : ¬ x = 0#32 := by rintro rfl; simp at h0
  simp [signW, hx, msb_false_of_lt h]

/-- jnp's floor division at one element, operation by operation: the truncated quotient, lowered by one where the
signs of dividend and divisor differ and the remainder is not zero. -/
def floorDivW (v d : BitVec 32) : BitVec 32 :=
  Scalar.select
    (IntOp.andi (IntOp.cmpi .ne (signW v) (signW d)) (IntOp.cmpi .ne (IntOp.remsi .host v d) 0#32))
    (IntOp.subi (IntOp.divsi .host v d) 1#32) (IntOp.divsi .host v d)

/-- jnp's remainder at one element, operation by operation: a zero divisor is replaced by one; the truncated
remainder, raised by the divisor where its sign differs from the divisor's and it is not zero. -/
def remainderW (v d : BitVec 32) : BitVec 32 :=
  let d' := Scalar.select (IntOp.cmpi .eq d 0#32) 1#32 d
  let r := IntOp.remsi .host v d'
  Scalar.select
    (IntOp.andi (IntOp.cmpi .ne (IntOp.cmpi .slt r 0#32) (IntOp.cmpi .slt d' 0#32)) (IntOp.cmpi .ne r 0#32))
    (IntOp.addi r d') r

/-- Floor division of a word below 2³¹ by a positive word below 2³¹ is the quotient of the values: no correction
is made, because either the signs agree or the dividend (hence the remainder) is zero. -/
theorem floorDivW_eq (v d : BitVec 32) (hv : v.toNat < 2 ^ 31) (hd0 : 0 < d.toNat) (hd : d.toNat < 2 ^ 31) :
    floorDivW v d = BitVec.ofNat 32 (v.toNat / d.toNat) := by
  have hcond : IntOp.andi (IntOp.cmpi .ne (signW v) (signW d)) (IntOp.cmpi .ne (IntOp.remsi .host v d) 0#32) = 0#1 := by
    rw [signW_pos d hd0 hd, remsi_host_eq v d hv hd0 hd]
    by_cases hz : v.toNat = 0
    · have : IntOp.cmpi .ne (BitVec.ofNat 32 (v.toNat % d.toNat)) 0#32 = 0#1 := by
        rw [hz, Nat.zero_mod]; decide
      rw [this]; simp [IntOp.andi]
    · have : IntOp.cmpi .ne (signW v) 1 = 0#1 := by
        rw [signW_pos v (by omega) hv]; decide
      rw [this]; simp [IntOp.andi]
  unfold floorDivW
  rw [hcond, select_zero, divsi_host_eq v d hv hd0 hd]

/-- The remainder of a word below 2³¹ by a positive word below 2³¹ is the remainder of the values: the divisor is
not zero, and no correction is made because remainder and divisor are both non-negative. -/
theorem remainderW_eq (v d : BitVec 32) (hv : v.toNat < 2 ^ 31) (hd0 : 0 < d.toNat) (hd : d.toNat < 2 ^ 31) :
    remainderW v d = BitVec.ofNat 32 (v.toNat % d.toNat) := by
  have hdne : d ≠ 0#32 := by rintro rfl; simp at hd0
  have hd' : Scalar.select (IntOp.cmpi .eq d 0#32) 1#32 d = d := by
    have : IntOp.cmpi .eq d 0#32 = 0#1 := by
      simp only [IntOp.cmpi]
      have : (d == 0#32) = false := by simpa using hdne
      rw [this]; rfl
    rw [this, select_zero]
  have hr : IntOp.remsi .host v d = BitVec.ofNat 32 (v.toNat % d.toNat) := remsi_host_eq v d hv hd0 hd
  have hrlt : (BitVec.ofNat 32 (v.toNat % d.toNat)).toNat < 2 ^ 31 := by
    have := Nat.mod_lt v.toNat hd0
    rw [BitVec.toNat_ofNat, Nat.mod_eq_of_lt (a := v.toNat % d.toNat) (b := 2 ^ 32) (by omega)]; omega
  have hneg (a : BitVec 32) (ha : a.toNat < 2 ^ 31) : IntOp.cmpi .slt a 0#32 = 0#1 := by
    have h := (slt_iff_toNat (a := a) (b := 0#32) ha (by decide)).not
    have h1 : ¬ IntOp.cmpi .slt a 0#32 = 1#1 := h.mpr (by simp)
    revert h1; generalize IntOp.cmpi .slt a 0#32 = c; revert c; decide
  unfold remainderW
  simp only [hd', hr, hneg _ hrlt, hneg d hd]
  have : IntOp.cmpi .ne (0#1) (0#1) = 0#1 := by decide
  rw [this]
  simp [IntOp.andi, select_zero]

/-- A word below 2³¹ is not below zero as a signed number. -/
theorem slt_zero_false (a : BitVec 32) (ha : a.toNat < 2 ^ 31) : a.slt 0#32 = false := by
  have h := StableHlo.Predicate.slt_bool_iff_toNat (a := a) (b := 0#32) ha (by decide)
  cases hb : a.slt 0#32
  · rfl
  · rw [hb] at h
    exact absurd (h.mp rfl) (by simp)

/-- The signed comparison "below zero" of a word below 2³¹ is the zero bit. -/
theorem cmpi_slt_zero (a : BitVec 32) (ha : a.toNat < 2 ^ 31) : IntOp.cmpi .slt a 0#32 = 0#1 := by
  simp only [IntOp.cmpi, slt_zero_false a ha]; rfl

/-- The wrap of a negative index (add c where the word is below zero) leaves a word below 2³¹ as it is. -/
theorem wrapW_eq (v c : BitVec 32) (hv : v.toNat < 2 ^ 31) :
    Scalar.select (IntOp.cmpi .slt v 0#32) (IntOp.addi v c) v = v := by
  rw [cmpi_slt_zero v hv, select_zero]

/-- The signed maximum of zero and a word below 2³¹ is the word. -/
theorem maxsi_zero_left (v : BitVec 32) (hv : v.toNat < 2 ^ 31) : IntOp.maxsi 0#32 v = v := by
  simp [IntOp.maxsi, slt_zero_false v hv]

/-- Selecting on the signed comparison "position k at least the total", for a position and a total below 2³¹, is
selecting on the comparison of the values. -/
theorem fillW_eq {α : Type} (k : ℕ) (hk : k < 2 ^ 31) (total : BitVec 32) (ht : total.toNat < 2 ^ 31) (f x : α) :
    Scalar.select (IntOp.cmpi .sge (BitVec.ofNat 32 k) total) f x = if total.toNat ≤ k then f else x := by
  have hk' : (BitVec.ofNat 32 k).toNat = k := by rw [BitVec.toNat_ofNat]; exact Nat.mod_eq_of_lt (by omega)
  have h := sge_iff_toNat (a := BitVec.ofNat 32 k) (b := total) (by omega) ht
  rw [hk'] at h
  by_cases hle : total.toNat ≤ k
  · rw [h.mpr hle, select_one, if_pos hle]
  · have h1 : ¬ IntOp.cmpi .sge (BitVec.ofNat 32 k) total = 1#1 := fun hc => hle (h.mp hc)
    have h0 : IntOp.cmpi .sge (BitVec.ofNat 32 k) total = 0#1 := by
      revert h1; generalize IntOp.cmpi .sge (BitVec.ofNat 32 k) total = c; revert c; decide
    rw [h0, select_zero, if_neg hle]

/-! ## Vectors: the helpers operation by operation, and their values -/

/-- The shape of a scalar. -/
abbrev S0 : Shape := ⟨0, ![]⟩

/-- The one index of a scalar. -/
def i0 : S0.Idx := fun a => a.elim0

/-- A scalar broadcast to any shape reads the scalar at every index. -/
theorem bcast0_apply {α : Type} {t : Shape} (bc : S0.BroadcastsInDim t ![]) (x : S0.Idx → α) (j : t.Idx) :
    broadcastInDim t ![] bc x j = x i0 := by
  simp only [broadcastInDim]
  congr 1
  funext a
  exact a.elim0

variable {t : Shape} (bc : S0.BroadcastsInDim t ![])

/-- jnp's floor division of a vector by a scalar, operation by operation. -/
def floorDivide (v : IVec t 32) (d : IVec S0 32) : IVec t 32 :=
  let v0 := broadcastInDim t ![] bc d
  let v1 := Host.divsi v v0
  let v2 := signi v
  let v3 := signi d
  let v4 := broadcastInDim t ![] bc v3
  let v5 := cmpi .ne v2 v4
  let v6 := broadcastInDim t ![] bc d
  let v7 := Host.remsi v v6
  let c := constantI S0 32 0#32
  let v8 := broadcastInDim t ![] bc c
  let v9 := cmpi .ne v7 v8
  let v10 := andi v5 v9
  let c_0 := constantI S0 32 1#32
  let v11 := broadcastInDim t ![] bc c_0
  let v12 := subi v1 v11
  select v10 v12 v1

/-- jnp's remainder of a vector by a scalar, operation by operation. -/
def remainder (v : IVec t 32) (d : IVec S0 32) : IVec t 32 :=
  let v0 : IVec S0 32 := id d
  let c := constantI S0 32 0#32
  let v1 := cmpi .eq v0 c
  let c_0 := constantI S0 32 1#32
  let v2 := select v1 c_0 v0
  let v3 := broadcastInDim t ![] bc v2
  let v4 := Host.remsi v v3
  let c_1 := constantI S0 32 0#32
  let v5 := broadcastInDim t ![] bc c_1
  let v6 := cmpi .ne v4 v5
  let c_2 := constantI S0 32 0#32
  let v7 := broadcastInDim t ![] bc c_2
  let v8 := cmpi .slt v4 v7
  let c_3 := constantI S0 32 0#32
  let v9 := cmpi .slt v2 c_3
  let v10 := broadcastInDim t ![] bc v9
  let v11 := cmpi .ne v8 v10
  let v12 := andi v11 v6
  let v13 := broadcastInDim t ![] bc v2
  let v14 := addi v4 v13
  select v12 v14 v4

/-- The selection between a broadcast scalar and a vector, operation by operation. -/
def where4 (c : IVec t 1) (f : IVec S0 32) (x : IVec t 32) : IVec t 32 :=
  let v0 : IVec S0 32 := id f
  let v1 := broadcastInDim t ![] bc v0
  select c v1 x

/-- The clip below at a scalar, operation by operation. -/
def clipLo (v : IVec t 32) (lo : IVec S0 32) : IVec t 32 :=
  let v0 : IVec S0 32 := id lo
  let v1 := broadcastInDim t ![] bc v0
  maxsi v1 v

/-- The wrap of negative indices by a constant c, operation by operation. -/
def wrapNeg (v : IVec t 32) (c : BitVec 32) : IVec t 32 :=
  let z := broadcastInDim t ![] bc (constantI S0 32 0#32)
  let m := cmpi .slt v z
  let cc := broadcastInDim t ![] bc (constantI S0 32 c)
  let s := addi v cc
  select m s v

/-- Floor division of a vector by a scalar is, at each index, the one-element floor division. -/
theorem floorDivide_apply (v : IVec t 32) (d : IVec S0 32) (j : t.Idx) :
    floorDivide bc v d j = floorDivW (v j) (d i0) := by
  simp only [floorDivide, floorDivW, select, andi, cmpi, signi, signW, Host.divsi, Host.remsi, subi, constantI,
    bcast0_apply]

/-- The remainder of a vector by a scalar is, at each index, the one-element remainder. -/
theorem remainder_apply (v : IVec t 32) (d : IVec S0 32) (j : t.Idx) :
    remainder bc v d j = remainderW (v j) (d i0) := by
  simp only [remainder, remainderW, select, andi, addi, cmpi, Host.remsi, constantI, bcast0_apply, id]

/-- The selection between a broadcast scalar and a vector is the selection at each index. -/
theorem where4_apply (c : IVec t 1) (f : IVec S0 32) (x : IVec t 32) (j : t.Idx) :
    where4 bc c f x j = Scalar.select (c j) (f i0) (x j) := by
  simp only [where4, select, bcast0_apply, id]

/-- Floor division of a vector of words below 2³¹ by a positive scalar below 2³¹: the quotient of the values. -/
theorem floorDivide_eq (v : IVec t 32) (d : IVec S0 32) (hv : ∀ j, (v j).toNat < 2 ^ 31)
    (hd0 : 0 < (d i0).toNat) (hd : (d i0).toNat < 2 ^ 31) :
    floorDivide bc v d = fun j => BitVec.ofNat 32 ((v j).toNat / (d i0).toNat) := by
  funext j
  rw [floorDivide_apply, floorDivW_eq _ _ (hv j) hd0 hd]

/-- The remainder of a vector of words below 2³¹ by a positive scalar below 2³¹: the remainder of the values. -/
theorem remainder_eq (v : IVec t 32) (d : IVec S0 32) (hv : ∀ j, (v j).toNat < 2 ^ 31)
    (hd0 : 0 < (d i0).toNat) (hd : (d i0).toNat < 2 ^ 31) :
    remainder bc v d = fun j => BitVec.ofNat 32 ((v j).toNat % (d i0).toNat) := by
  funext j
  rw [remainder_apply, remainderW_eq _ _ (hv j) hd0 hd]

/-- Clipping a vector of words below 2³¹ below at zero changes nothing. -/
theorem clipLo_zero_eq (v : IVec t 32) (hv : ∀ j, (v j).toNat < 2 ^ 31) :
    clipLo bc v (constantI S0 32 0#32) = v := by
  funext j
  simp only [clipLo, maxsi, bcast0_apply, id, constantI]
  exact maxsi_zero_left _ (hv j)

/-- Wrapping the negative entries of a vector of words below 2³¹ changes nothing. -/
theorem wrapNeg_eq (v : IVec t 32) (c : BitVec 32) (hv : ∀ j, (v j).toNat < 2 ^ 31) :
    wrapNeg bc v c = v := by
  funext j
  simp only [wrapNeg, select, cmpi, addi, bcast0_apply, constantI]
  exact wrapW_eq _ _ (hv j)

/-- The fill past a total, operation by operation: where the position is at least the total (signed comparison
against the broadcast total), the broadcast scalar f; elsewhere the vector x. -/
def fillFrom {n : ℕ} (bc : S0.BroadcastsInDim ⟨1, ![n]⟩ ![]) (total f : IVec S0 32) (x : IVec ⟨1, ![n]⟩ 32) :
    IVec ⟨1, ![n]⟩ 32 :=
  let v18 := iotaInDim ⟨1, ![n]⟩ 32 0
  let v21 := broadcastInDim ⟨1, ![n]⟩ ![] bc total
  let v22 := cmpi .sge v18 v21
  where4 bc v22 f x

/-- For a vector of at most 2³¹ entries and a total below 2³¹, the fill past the total is: at a position at least
the total, the scalar f; before it, the vector's own entry. -/
theorem fillFrom_apply {n : ℕ} (bc : S0.BroadcastsInDim ⟨1, ![n]⟩ ![]) (total f : IVec S0 32)
    (x : IVec ⟨1, ![n]⟩ 32) (hn : n ≤ 2 ^ 31) (ht : (total i0).toNat < 2 ^ 31) (j : (⟨1, ![n]⟩ : Shape).Idx) :
    fillFrom bc total f x j = if (total i0).toNat ≤ (j 0).val then f i0 else x j := by
  have hj : (j 0).val < n := (j 0).isLt
  simp only [fillFrom, where4_apply, cmpi, iotaInDim]
  rw [bcast0_apply bc total j]
  exact fillW_eq (j 0).val (by omega) (total i0) ht (f i0) (x j)

/-! ## Constant divisors -/

/-- The value of a small natural number written as a word is the number. -/
theorem toNat_ofNat_of_lt (a : ℕ) (ha : a < 2 ^ 31) : (BitVec.ofNat 32 a).toNat = a := by
  rw [BitVec.toNat_ofNat]; exact Nat.mod_eq_of_lt (by omega)

/-- Floor division of a vector of words below 2³¹ by a positive constant below 2³¹. -/
theorem floorDivide_const_eq (v : IVec t 32) (c : BitVec 32) (hv : ∀ j, (v j).toNat < 2 ^ 31)
    (hc0 : 0 < c.toNat) (hc : c.toNat < 2 ^ 31) :
    floorDivide bc v (constantI S0 32 c) = fun j => BitVec.ofNat 32 ((v j).toNat / c.toNat) :=
  floorDivide_eq bc v (constantI S0 32 c) hv hc0 hc

/-- The remainder of a vector of words below 2³¹ by a positive constant below 2³¹. -/
theorem remainder_const_eq (v : IVec t 32) (c : BitVec 32) (hv : ∀ j, (v j).toNat < 2 ^ 31)
    (hc0 : 0 < c.toNat) (hc : c.toNat < 2 ^ 31) :
    remainder bc v (constantI S0 32 c) = fun j => BitVec.ofNat 32 ((v j).toNat % c.toNat) :=
  remainder_eq bc v (constantI S0 32 c) hv hc0 hc

/-- Floor division of a vector of words below 2³¹ by one is the vector. -/
theorem floorDivide_one_eq (v : IVec t 32) (hv : ∀ j, (v j).toNat < 2 ^ 31) :
    floorDivide bc v (constantI S0 32 1#32) = v := by
  rw [floorDivide_const_eq bc v 1#32 hv (by decide) (by decide)]
  funext j
  apply BitVec.eq_of_toNat_eq
  have h1 : (1#32 : BitVec 32).toNat = 1 := by decide
  rw [h1, Nat.div_one, toNat_ofNat_of_lt _ (hv j)]

/-- Row of a flat position: the floor division by 4096 followed by the remainder by 4096 of a vector of words
below 2³¹ is, at each index, the value divided by 4096 and reduced modulo 4096. -/
theorem rowOf_eq (v : IVec t 32) (hv : ∀ j, (v j).toNat < 2 ^ 31) :
    remainder bc (floorDivide bc v (constantI S0 32 4096#32)) (constantI S0 32 4096#32)
      = fun j => BitVec.ofNat 32 ((v j).toNat / 4096 % 4096) := by
  have h4 : (4096#32 : BitVec 32).toNat = 4096 := by decide
  rw [floorDivide_const_eq bc v 4096#32 hv (by decide) (by decide)]
  have hq : ∀ j, (BitVec.ofNat 32 ((v j).toNat / (4096#32 : BitVec 32).toNat)).toNat < 2 ^ 31 := by
    intro j
    have := hv j
    rw [h4, toNat_ofNat_of_lt _ (by omega)]; omega
  rw [remainder_const_eq bc _ 4096#32 hq (by decide) (by decide)]
  funext j
  have := hv j
  rw [h4, toNat_ofNat_of_lt _ (by omega)]

/-- Column of a flat position: the floor division by one followed by the remainder by 4096 of a vector of words
below 2³¹ is, at each index, the value reduced modulo 4096. -/
theorem colOf_eq (v : IVec t 32) (hv : ∀ j, (v j).toNat < 2 ^ 31) :
    remainder bc (floorDivide bc v (constantI S0 32 1#32)) (constantI S0 32 4096#32)
      = fun j => BitVec.ofNat 32 ((v j).toNat % 4096) := by
  have h4 : (4096#32 : BitVec 32).toNat = 4096 := by decide
  rw [floorDivide_one_eq bc v hv, remainder_const_eq bc v 4096#32 hv (by decide) (by decide), h4]

end Cert.LibWordDiv
-- ==== Proof.KPrefix.lean ====
/-
  What the kernel finds when it is launched, element by element: the high and low base-64 digits of the index at
  (head, position), and the two table arrays, the codebook re-laid as (head, feature * 64 + low digit, high digit)
  and its residual, which is zero on finite values.
-/
import proofs.«400585_j86663850098809_3_alg».proof.Proof.Gen.KernelIdeal.Frame.Runs
import proofs.«400585_j86663850098809_3_alg».proof.Proof.LibWordDiv
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Prefix

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The index argument as launched. -/
abbrev idxArr (c : Dev nD) : IVec S64x2048x64 32 := m ((c : Thread nD τ).loc main_arg0)
/-- The codebook argument as launched. -/
abbrev valArr (c : Dev nD) : FVec Ideal S64x4096x12 .f32 := m ((c : Thread nD τ).loc main_arg1)

/-- Position p of 131072 = 64 × 2048 lies in batch p / 2048 < 64. -/
theorem batch_lt (p : Fin 131072) : p.val / 2048 < 64 := by have := p.isLt; omega
/-- The batch of a flat position. -/
def batchOf (p : Fin 131072) : Fin 64 := ⟨p.val / 2048, batch_lt p⟩
/-- The place of a flat position inside its batch. -/
def placeOf (p : Fin 131072) : Fin 2048 := ⟨p.val % 2048, Nat.mod_lt _ (by decide)⟩

/-- Row r = feature * 64 + low digit and column k = high digit name codebook row k * 64 + r % 64. -/
theorem code_lt (r : Fin 768) (k : Fin 64) : k.val * 64 + r.val % 64 < 4096 := by
  have := k.isLt; have := Nat.mod_lt r.val (by decide : 0 < 64); omega
/-- Row r of 768 belongs to feature r / 64 < 12. -/
theorem feat_lt (r : Fin 768) : r.val / 64 < 12 := by have := r.isLt; omega

/-! ## The index array, laid out and split into base-64 digits -/

/-- The index array as the host operations lay it out: (batch, place) merged into one position axis, then the head
axis brought to the front. -/
abbrev laid (x : IVec S64x2048x64 32) : IVec S64x131072 32 :=
  transpose S64x131072 [1, 0] (shapeCast S131072x64 x shapeCasts_S64x2048x64_S131072x64)
    transposes_S131072x64_S64x131072_1_0

/-- The laid-out index array at (head, position) is the index array at (batch, place, head): position p is flat
position batch * 2048 + place of the first two axes. -/
theorem laid_apply (x : IVec S64x2048x64 32) (h : Fin 64) (p : Fin 131072) :
    laid x (ix2 h p) = x (ix3 (batchOf p) (placeOf p) h) := by
  dsimp only [laid]
  rw [transpose_ix2_apply]
  exact shapeCast_apply x shapeCasts_S64x2048x64_S131072x64 (ix2 p h) (ix3 (batchOf p) (placeOf p) h) (by
    rw [Shape.rowMajor_val_three, Shape.rowMajor_val_two]
    show (p.val / 2048 * 2048 + p.val % 2048) * 64 + h.val = p.val * 64 + h.val
    omega)

/-- The scalar divisor is 64. -/
theorem sixtyfour_toNat : ((constantI S_ 32 64#32 : IVec S_ 32) Cert.LibWordDiv.i0).toNat = 64 := rfl

/-- At (head, position), the floor division and the remainder by 64 of the laid-out index array are the quotient and
the remainder of the index's value: an index below 4096 is non-negative as a signed word, so neither recipe makes its
sign correction. -/
theorem digits (x : IVec S64x2048x64 32) (hr : ∀ j, (x j).toNat < 4096) (h : Fin 64) (p : Fin 131072) :
    Cert.LibWordDiv.floorDivide bcast_S_S64x131072 (laid x) (constantI S_ 32 64#32) (ix2 h p)
        = BitVec.ofNat 32 ((x (ix3 (batchOf p) (placeOf p) h)).toNat / 64)
      ∧ Cert.LibWordDiv.remainder bcast_S_S64x131072 (laid x) (constantI S_ 32 64#32) (ix2 h p)
        = BitVec.ofNat 32 ((x (ix3 (batchOf p) (placeOf p) h)).toNat % 64) := by
  have hv : (laid x (ix2 h p)).toNat < 2 ^ 31 := by
    rw [laid_apply]; exact lt_trans (hr _) (by norm_num)
  have hd0 : 0 < ((constantI S_ 32 64#32 : IVec S_ 32) Cert.LibWordDiv.i0).toNat := by
    rw [sixtyfour_toNat]; norm_num
  have hd : ((constantI S_ 32 64#32 : IVec S_ 32) Cert.LibWordDiv.i0).toNat < 2 ^ 31 := by
    rw [sixtyfour_toNat]; norm_num
  constructor
  · rw [Cert.LibWordDiv.floorDivide_apply, Cert.LibWordDiv.floorDivW_eq _ _ hv hd0 hd, sixtyfour_toNat, laid_apply]
  · rw [Cert.LibWordDiv.remainder_apply, Cert.LibWordDiv.remainderW_eq _ _ hv hd0 hd, sixtyfour_toNat, laid_apply]

/-- The high-digit array at launch is jnp's floor division by 64, operation by operation, of the laid-out indices. -/
theorem V_main_v2_eq (c : Dev nD) : (V m c main_v2 : IVec S64x131072 32)
    = Cert.LibWordDiv.floorDivide bcast_S_S64x131072 (laid (idxArr m c)) (constantI S_ 32 64#32) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-- The low-digit array at launch is jnp's remainder by 64, operation by operation, of the laid-out indices. -/
theorem V_main_v3_eq (c : Dev nD) : (V m c main_v3 : IVec S64x131072 32)
    = Cert.LibWordDiv.remainder bcast_S_S64x131072 (laid (idxArr m c)) (constantI S_ 32 64#32) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-! ## The codebook, re-laid -/

/-- The codebook re-laid: its 4096 codes split as 64 high digits by 64 low digits, the feature axis brought in front
of the digits and the digits exchanged, then feature and low digit merged into one row axis. -/
abbrev relaid (x : FVec Ideal S64x4096x12 .f32) : FVec Ideal S64x768x64 .f32 :=
  shapeCast S64x768x64
    (transpose S64x12x64x64 [0, 3, 2, 1] (shapeCast S64x64x64x12 x shapeCasts_S64x4096x12_S64x64x64x12)
      transposes_S64x64x64x12_S64x12x64x64_0_3_2_1)
    shapeCasts_S64x12x64x64_S64x768x64

/-- The re-laid codebook at (head, row, column) is the codebook at (head, column * 64 + row % 64, row / 64): row is
feature * 64 + low digit, column is the high digit, and code is high digit * 64 + low digit. -/
theorem relaid_apply (x : FVec Ideal S64x4096x12 .f32) (h : Fin 64) (r : Fin 768) (k : Fin 64) :
    relaid x (ix3 h r k)
      = x (ix3 h (⟨k.val * 64 + r.val % 64, code_lt r k⟩ : Fin 4096) (⟨r.val / 64, feat_lt r⟩ : Fin 12)) := by
  have hl : r.val % 64 < 64 := Nat.mod_lt _ (by decide)
  dsimp only [relaid]
  rw [shapeCast_apply _ shapeCasts_S64x12x64x64_S64x768x64 (ix3 h r k)
    (ix4 h (⟨r.val / 64, feat_lt r⟩ : Fin 12) (⟨r.val % 64, hl⟩ : Fin 64) k) (by
      rw [Shape.rowMajor_val_four, Shape.rowMajor_val_three]
      show ((h.val * 12 + r.val / 64) * 64 + r.val % 64) * 64 + k.val = (h.val * 768 + r.val) * 64 + k.val
      omega)]
  rw [transpose_apply _ _ transposes_S64x64x64x12_S64x12x64x64_0_3_2_1
    (ix4 h (⟨r.val / 64, feat_lt r⟩ : Fin 12) (⟨r.val % 64, hl⟩ : Fin 64) k)
    (ix4 h k (⟨r.val % 64, hl⟩ : Fin 64) (⟨r.val / 64, feat_lt r⟩ : Fin 12))
    (fun b => match b with | ⟨0, _⟩ => rfl | ⟨1, _⟩ => rfl | ⟨2, _⟩ => rfl | ⟨3, _⟩ => rfl)]
  rw [shapeCast_apply _ shapeCasts_S64x4096x12_S64x64x64x12
    (ix4 h k (⟨r.val % 64, hl⟩ : Fin 64) (⟨r.val / 64, feat_lt r⟩ : Fin 12))
    (ix3 h (⟨k.val * 64 + r.val % 64, code_lt r k⟩ : Fin 4096) (⟨r.val / 64, feat_lt r⟩ : Fin 12)) (by
      rw [Shape.rowMajor_val_four, Shape.rowMajor_val_three]
      show (h.val * 4096 + (k.val * 64 + r.val % 64)) * 12 + r.val / 64
        = ((h.val * 64 + k.val) * 64 + r.val % 64) * 12 + r.val / 64
      omega)]

/-- The first table array at launch is the re-laid codebook, narrowed. -/
theorem V_main_v7_eq (c : Dev nD) : (V m c main_v7 : FVec Ideal S64x768x64 .bf16)
    = truncf .bf16 (relaid (valArr m c)) bitsLt_bf16_f32 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The second table array at launch is the re-laid codebook minus its narrowed-and-widened self, narrowed. -/
theorem V_main_v10_eq (c : Dev nD) : (V m c main_v10 : FVec Ideal S64x768x64 .bf16)
    = truncf .bf16 (subf (relaid (valArr m c))
        (extf .f32 (truncf .bf16 (relaid (valArr m c)) bitsLt_bf16_f32 : FVec Ideal S64x768x64 .bf16) bitsLt_bf16_f32))
        bitsLt_bf16_f32 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-! ## What the kernel is given -/

/-- The high digit the kernel is given at (head, position), for indices in range. -/
theorem V_hi (c : Dev nD) (hr : ∀ j, (idxArr m c j).toNat < 4096) (h : Fin 64) (p : Fin 131072) :
    (V m c main_v2 : IVec S64x131072 32) (ix2 h p)
      = BitVec.ofNat 32 ((idxArr m c (ix3 (batchOf p) (placeOf p) h)).toNat / 64) := by
  rw [V_main_v2_eq m c]
  exact (digits (idxArr m c) hr h p).1

/-- The low digit the kernel is given at (head, position), for indices in range. -/
theorem V_lo (c : Dev nD) (hr : ∀ j, (idxArr m c j).toNat < 4096) (h : Fin 64) (p : Fin 131072) :
    (V m c main_v3 : IVec S64x131072 32) (ix2 h p)
      = BitVec.ofNat 32 ((idxArr m c (ix3 (batchOf p) (placeOf p) h)).toNat % 64) := by
  rw [V_main_v3_eq m c]
  exact (digits (idxArr m c) hr h p).2

/-- The first table array: the codebook re-laid. -/
theorem V_thi (c : Dev nD) (h : Fin 64) (r : Fin 768) (k : Fin 64) :
    (V m c main_v7 : FVec Ideal S64x768x64 .bf16) (ix3 h r k)
      = valArr m c (ix3 h (⟨k.val * 64 + r.val % 64, code_lt r k⟩ : Fin 4096) (⟨r.val / 64, feat_lt r⟩ : Fin 12)) := by
  rw [V_main_v7_eq m c, truncf_apply, relaid_apply]

/-- The second table array, the residual of the first: zero where the codebook is finite. -/
theorem V_tlo (c : Dev nD) (hfin : ∀ i, ∃ x : ℝ, valArr m c i = (x : EReal)) (h : Fin 64) (r : Fin 768) (k : Fin 64) :
    (V m c main_v10 : FVec Ideal S64x768x64 .bf16) (ix3 h r k) = (0 : EReal) := by
  rw [V_main_v10_eq m c, truncf_apply, subf_apply, extf_apply, truncf_apply, relaid_apply]
  obtain ⟨x, hx⟩ := hfin (ix3 h (⟨k.val * 64 + r.val % 64, code_lt r k⟩ : Fin 4096) (⟨r.val / 64, feat_lt r⟩ : Fin 12))
  rw [hx, ← EReal.coe_sub, sub_self, EReal.coe_zero]

end Cert.KernelIdeal.Prefix

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.LibMaskSum.lean ====
/-
  A 0/1-masked contraction over the extended reals is a sum over the mask's support.

  On the extended reals `x * 0 = 0` and `x * 1 = x` for EVERY `x`, the infinities included (the extended reals are a
  commutative monoid with zero), so a mask factor `if g i = k then 1 else 0` inside a sum keeps exactly the terms with
  `g i = k`, with no finiteness side condition. When the index set is `H` consecutive blocks of `B` and `g` is
  "which block" (`c / B`), the support of block `k` is the `B` positions `B * k + b`, and the sum over it is a sum
  over `Fin B`. The one-hot expansion `∑ h, t h * [q = h] = t q` is the same fact read the other way.
-/
import Mathlib.Data.EReal.Inv
import Mathlib.Algebra.BigOperators.Group.Finset.Basic
import Mathlib.Algebra.BigOperators.Group.Finset.Piecewise

open scoped BigOperators

namespace Cert.Lib

/-- A 0/1 mask factor on the extended reals: `(if c then 1 else 0) * a` is `a` where the condition holds and `0`
    where it does not, for every `a` (infinite ones too). -/
theorem mask_mul (c : Prop) [Decidable c] (a : EReal) : (if c then (1 : EReal) else 0) * a = if c then a else 0 := by
  split_ifs <;> simp

/-- The same with the mask on the right. -/
theorem mul_mask (c : Prop) [Decidable c] (a : EReal) : a * (if c then (1 : EReal) else 0) = if c then a else 0 := by
  split_ifs <;> simp

/-- A masked term of a contraction: `p * ((if c then 1 else 0) * a)` is `p * a` where the condition holds and `0`
    where it does not, for every `p`, `a` on the extended reals. -/
theorem mul_mask_mul (c : Prop) [Decidable c] (p a : EReal) :
    p * ((if c then (1 : EReal) else 0) * a) = if c then p * a else 0 := by
  split_ifs <;> simp

/-- A 0/1-masked contraction is the sum over the mask's support: for finite `ι`, any `g : ι → κ`, `k : κ` and any
    `p a : ι → EReal`, `∑ i, p i * ((if g i = k then 1 else 0) * a i) = ∑ i ∈ univ.filter (g · = k), p i * a i`. -/
theorem sum_mul_mask_mul {ι κ : Type*} [Fintype ι] [DecidableEq κ] (g : ι → κ) (k : κ) (p a : ι → EReal) :
    ∑ i, p i * ((if g i = k then (1 : EReal) else 0) * a i)
      = ∑ i ∈ Finset.univ.filter (fun i => g i = k), p i * a i := by
  rw [Finset.sum_filter]
  exact Finset.sum_congr rfl fun i _ => mul_mask_mul _ _ _

/-- The same for a mask stated by any decidable predicate `q` on the index. -/
theorem sum_mul_maskP_mul {ι : Type*} [Fintype ι] (q : ι → Prop) [DecidablePred q] (p a : ι → EReal) :
    ∑ i, p i * ((if q i then (1 : EReal) else 0) * a i) = ∑ i ∈ Finset.univ.filter q, p i * a i := by
  rw [Finset.sum_filter]
  exact Finset.sum_congr rfl fun i _ => mul_mask_mul _ _ _

/-- A masked sum with the mask as the only other factor: `∑ i, (if q i then 1 else 0) * a i` is the sum of `a` over
    the indices where `q` holds. -/
theorem sum_maskP_mul {ι : Type*} [Fintype ι] (q : ι → Prop) [DecidablePred q] (a : ι → EReal) :
    ∑ i, (if q i then (1 : EReal) else 0) * a i = ∑ i ∈ Finset.univ.filter q, a i := by
  rw [Finset.sum_filter]
  exact Finset.sum_congr rfl fun i _ => mask_mul _ _

/-- Position `B * k + b` of block `k < H` at offset `b < B` lies below `H * B`. -/
theorem block_pos_lt {n H B : Nat} (hn : n = H * B) (k : Fin H) (b : Fin B) : B * k.val + b.val < n := by
  subst hn
  calc B * k.val + b.val < B * k.val + B := Nat.add_lt_add_left b.isLt _
    _ = B * (k.val + 1) := (Nat.mul_succ _ _).symm
    _ ≤ B * H := Nat.mul_le_mul_left B k.isLt
    _ = H * B := Nat.mul_comm _ _

/-- The sum over block `k` of an index set of `H` consecutive blocks of `B`: the indices `c : Fin n`
    (`n = H * B`) with `c / B = k` are the `B` positions `B * k + b`, so the filtered sum is a sum over `Fin B`.
    For any additive commutative monoid. -/
theorem sum_filter_block {α : Type*} [AddCommMonoid α] {n H B : Nat} (hn : n = H * B) (k : Fin H) (f : Fin n → α) :
    ∑ c ∈ Finset.univ.filter (fun c : Fin n => c.val / B = k.val), f c
      = ∑ b : Fin B, f ⟨B * k.val + b.val, block_pos_lt hn k b⟩ := by
  symm
  refine Finset.sum_bij (fun b _ => (⟨B * k.val + b.val, block_pos_lt hn k b⟩ : Fin n)) ?_ ?_ ?_ ?_
  · intro b _
    have hB : 0 < B := Nat.lt_of_le_of_lt (Nat.zero_le _) b.isLt
    simp only [Finset.mem_filter, Finset.mem_univ, true_and]
    rw [Nat.mul_add_div hB, Nat.div_eq_of_lt b.isLt, Nat.add_zero]
  · intro b₁ _ b₂ _ h
    have := congrArg Fin.val h
    simp only at this
    exact Fin.ext (by omega)
  · intro c hc
    simp only [Finset.mem_filter, Finset.mem_univ, true_and] at hc
    have hB : 0 < B := Nat.pos_of_ne_zero (by
      rintro rfl
      have h1 : c.val < H * 0 := lt_of_lt_of_eq c.isLt hn
      exact absurd h1 (by simp))
    refine ⟨⟨c.val % B, Nat.mod_lt _ hB⟩, Finset.mem_univ _, ?_⟩
    apply Fin.ext
    show B * k.val + c.val % B = c.val
    rw [← hc]; exact Nat.div_add_mod _ _
  · intro b _; rfl

/-- The block form of the masked contraction: over `Fin n` with `n = H * B` and the mask "`c` lies in block `k`"
    (`c / B = k`), `∑ c, p c * ((if c / B = k then 1 else 0) * a c) = ∑ b : Fin B, p (B·k + b) * a (B·k + b)`. -/
theorem sum_mul_blockmask_mul {n H B : Nat} (hn : n = H * B) (k : Fin H) (p a : Fin n → EReal) :
    ∑ c : Fin n, p c * ((if c.val / B = k.val then (1 : EReal) else 0) * a c)
      = ∑ b : Fin B, p ⟨B * k.val + b.val, block_pos_lt hn k b⟩ * a ⟨B * k.val + b.val, block_pos_lt hn k b⟩ := by
  rw [sum_mul_maskP_mul (fun c : Fin n => c.val / B = k.val) p a]
  exact sum_filter_block hn k fun c => p c * a c

/-- The one-hot expansion: `∑ h : Fin H, t h * (if j = h then 1 else 0) = t j` on the extended reals. -/
theorem sum_mul_onehot {H : Nat} (t : Fin H → EReal) (j : Fin H) :
    ∑ h : Fin H, t h * (if j = h then (1 : EReal) else 0) = t j := by
  simp only [mul_mask]
  rw [Finset.sum_ite_eq Finset.univ j t, if_pos (Finset.mem_univ _)]

/-- The one-hot expansion with the selected position a natural number `q < H` compared with the summation index's
    value: `∑ h : Fin H, t h * (if q = h then 1 else 0) = t q`. With `q = c / B` for `c < H * B` this is the block
    number of `c`. -/
theorem sum_mul_onehot_val {H : Nat} (t : Fin H → EReal) (q : Nat) (hq : q < H) :
    ∑ h : Fin H, t h * (if q = h.val then (1 : EReal) else 0) = t ⟨q, hq⟩ := by
  rw [← sum_mul_onehot t ⟨q, hq⟩]
  refine Finset.sum_congr rfl fun h _ => ?_
  have : (q = h.val) ↔ ((⟨q, hq⟩ : Fin H) = h) := ⟨fun e => Fin.ext e, fun e => congrArg Fin.val e⟩
  simp only [this]

/-- The block number of a position below `H * B` is below `H`. -/
theorem block_lt {n H B : Nat} (hn : n = H * B) (c : Fin n) : c.val / B < H := by
  have hc : c.val < H * B := lt_of_lt_of_eq c.isLt hn
  exact Nat.div_lt_of_lt_mul (lt_of_lt_of_eq hc (Nat.mul_comm H B))

/-- The one-hot expansion at a block number: for `c : Fin n`, `n = H * B`,
    `∑ h : Fin H, t h * (if c / B = h then 1 else 0) = t (c / B)`. -/
theorem sum_mul_onehot_block {n H B : Nat} (hn : n = H * B) (t : Fin H → EReal) (c : Fin n) :
    ∑ h : Fin H, t h * (if c.val / B = h.val then (1 : EReal) else 0) = t ⟨c.val / B, block_lt hn c⟩ :=
  sum_mul_onehot_val t _ _

end Cert.Lib
-- ==== Proof.Payload.lean ====
/-
  One head's arithmetic at an output element. With a the high digit and b the low digit of the index at lane n, the
  two one-hot products pick column a of both table slabs, and the masked sum over the low digit picks row d * 64 + b.
-/
import proofs.«400585_j86663850098809_3_alg».proof.Proof.Gen.KernelIdeal.Skeleton
import proofs.«400585_j86663850098809_3_alg».proof.Proof.LibPlainDot
import proofs.«400585_j86663850098809_3_alg».proof.Proof.LibMaskSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- Row d * 64 + b of a slab of 768 = 12 × 64 rows. -/
theorem row_lt (d : Fin 12) (b : ℕ) (hb : b < 64) : d.val * 64 + b < 768 := by have := d.isLt; omega

/-- The bit 1, widened to a word and converted, is the extended real 1. -/
theorem bit_one : FloatOps.sitofp (F := Ideal) .f32 ((1#1 : BitVec 1).setWidth 32) = (1 : EReal) := by
  show (((BitVec.setWidth 32 (1#1 : BitVec 1)).toInt : ℝ) : EReal) = 1
  have e : (BitVec.setWidth 32 (1#1 : BitVec 1)).toInt = 1 := by decide
  rw [e]; simp

/-- The bit 0, widened to a word and converted, is the extended real 0. -/
theorem bit_zero : FloatOps.sitofp (F := Ideal) .f32 ((0#1 : BitVec 1).setWidth 32) = (0 : EReal) := by
  show (((BitVec.setWidth 32 (0#1 : BitVec 1)).toInt : ℝ) : EReal) = 0
  have e : (BitVec.setWidth 32 (0#1 : BitVec 1)).toInt = 0 := by decide
  rw [e]; simp

/-- The comparison of the words of two digits k, a < 64, widened and converted: 1 when a = k, else 0. -/
theorem onehot_word (k a : ℕ) (hk : k < 64) (ha : a < 64) :
    FloatOps.sitofp (F := Ideal) .f32 ((IntOp.cmpi .eq (BitVec.ofNat 32 k) (BitVec.ofNat 32 a)).setWidth 32)
      = if a = k then (1 : EReal) else 0 := by
  by_cases h : a = k
  · subst h
    rw [if_pos rfl]
    have e : IntOp.cmpi .eq (BitVec.ofNat 32 a) (BitVec.ofNat 32 a) = 1#1 := by
      show BitVec.ofBool (BitVec.ofNat 32 a == BitVec.ofNat 32 a) = 1#1
      rw [beq_self_eq_true]; rfl
    rw [e]; exact bit_one
  · rw [if_neg h]
    have hne : ¬ BitVec.ofNat 32 k = BitVec.ofNat 32 a := by
      intro e
      have e' := congrArg BitVec.toNat e
      simp only [BitVec.toNat_ofNat] at e'
      omega
    have e : IntOp.cmpi .eq (BitVec.ofNat 32 k) (BitVec.ofNat 32 a) = 0#1 := by
      show BitVec.ofBool (BitVec.ofNat 32 k == BitVec.ofNat 32 a) = 0#1
      rw [beq_eq_false_iff_ne.mpr hne]; rfl
    rw [e]; exact bit_zero

/-- The one-hot array of a row of digit words, at row k and lane n: 1 when the lane's digit is k, else 0. -/
theorem onehot_apply (v : Vec Ideal S1x512 .i32) (n : Fin 512) (a : ℕ) (ha : a < 64)
    (h : v (ix2 (0 : Fin 1) n) = BitVec.ofNat 32 a) (k : Fin 64)
    (hi : S64x512.Iotas .tc 32 [0]) (h1 : S1x512.ShapeCasts S512) (h2 : S512.ShapeCasts S1x512)
    (h3 : S1x512.Broadcasts S64x512) (h4 : 1 < 32) :
    (sitofp .f32 (extui 32 (cmpi .eq (iota .tc S64x512 32 [0] hi)
        (broadcastTo S64x512 (shapeCast S1x512 (shapeCast S512 v h1) h2) h3)) h4) : FVec Ideal S64x512 .f32) (ix2 k n)
      = if a = k.val then (1 : EReal) else 0 := by
  show FloatOps.sitofp (F := Ideal) .f32 ((IntOp.cmpi .eq (iota .tc S64x512 32 [0] hi (ix2 k n))
    (broadcastTo S64x512 (shapeCast S1x512 (shapeCast S512 v h1) h2) h3 (ix2 k n))).setWidth 32) = _
  rw [iota_single_apply, broadcastTo_1b_ab_apply, shapeCast_shapeCast, h]
  exact onehot_word k.val a k.isLt ha

/-- The kernel's two products carry the dimension numbers of a plain product [768, 64] × [64, 512]. -/
theorem plain : Cert.Lib.PlainDot (M := 768) (K := 64) (N := 512) dot_S768x64_S64x512_S768x512_1_0_0_1_n_n :=
  ⟨rfl, rfl, rfl, rfl, rfl, rfl⟩

/-- A table slab times a one-hot array, at row r and lane n: the slab's entry at row r and the lane's digit. -/
theorem dot_onehot (t : FVec Ideal S768x64 .bf16) (oh : FVec Ideal S64x512 .bf16) (r : Fin 768) (n : Fin 512)
    (a : ℕ) (ha : a < 64) (hoh : ∀ k : Fin 64, oh (ix2 k n) = if a = k.val then (1 : EReal) else 0) :
    matmul dot_S768x64_S64x512_S768x512_1_0_0_1_n_n none t oh (constant (F := Ideal) S768x512 .f32 0x00000000#32) (ix2 r n)
      = t (ix2 r (⟨a, ha⟩ : Fin 64)) := by
  refine (plain.matmul_zero_apply none t oh r n).trans ?_
  refine (Finset.sum_congr rfl fun k _ => congrArg (fun z => t (ix2 r k) * z) (hoh k)).trans ?_
  exact Cert.Lib.sum_mul_onehot_val (fun k : Fin 64 => t (ix2 r k)) a ha

/-- The index a sum over axis 1 of [12, 64, 512] reads at (d, n) and summation coordinate k is (d, k, n). -/
theorem lift_eq (h : S12x64x512.Reduces [1] S12x512) (d : Fin 12) (n : Fin 512) (k : Fin 64) :
    h.lift (ix2 d n) k = ix3 d k n :=
  funext fun c => Fin.ext (match c with | ⟨0, _⟩ => rfl | ⟨1, _⟩ => rfl | ⟨2, _⟩ => rfl)

/-- The sum over axis 1 of a [12, 64, 512] array at (d, n): the sum over k < 64 of the entries (d, k, n). -/
theorem lane_sum (src : FVec Ideal S12x64x512 .f32) (h : S12x64x512.Reduces [1] S12x512) (hφ : FKind.Formats .f32)
    (hacc : (0x00000000#32 : BitVec 32) = FKind.add.neutral .f32 hφ) (d : Fin 12) (n : Fin 512) :
    multiReduction (F := Ideal) .add [1] S12x512 src 0x00000000#32 h hφ hacc (ix2 d n) = ∑ k : Fin 64, src (ix3 d k n) := by
  refine (Ideal.multiReduction_add_single src 0x00000000#32 h hφ hacc (ix2 d n)).trans ?_
  exact Finset.sum_congr rfl fun k _ => congrArg src (lift_eq h d n k)

/-- A [768, 512] array viewed as [12, 64, 512] reads, at (d, k, n), row d * 64 + k. -/
theorem reshape_apply (x : FVec Ideal S768x512 .f32) (h : S768x512.ShapeCasts S12x64x512) (d : Fin 12) (k : Fin 64) (n : Fin 512) :
    shapeCast S12x64x512 x h (ix3 d k n) = x (ix2 (⟨d.val * 64 + k.val, row_lt d k.val k.isLt⟩ : Fin 768) n) :=
  shapeCast_apply x h _ _ (by
    rw [Shape.rowMajor_val_three, Shape.rowMajor_val_two]
    rfl)

/-- A [1, 64, 512] array broadcast over 12 leading copies reads, at (d, k, n), the operand at (0, k, n). -/
theorem bcast_apply (x : FVec Ideal S1x64x512 .f32) (h : S1x64x512.Broadcasts S12x64x512) (d : Fin 12) (k : Fin 64) (n : Fin 512) :
    broadcastTo S12x64x512 x h (ix3 d k n) = x (ix3 (0 : Fin 1) k n) :=
  broadcastTo_apply x h _ _ fun c => match c with
    | ⟨0, _⟩ => rfl
    | ⟨1, _⟩ => rfl
    | ⟨2, _⟩ => rfl

/-- The stored value at feature d and lane n: the sum of the two slabs' entries at row d * 64 + b, column a. -/
theorem pay_apply (v5 v9 : Vec Ideal S1x512 .i32) (v22 v25 : Vec Ideal S1x768x64 .bf16) (d : Fin 12) (n : Fin 512)
    (a b : ℕ) (ha : a < 64) (hb : b < 64)
    (h5 : v5 (ix2 (0 : Fin 1) n) = BitVec.ofNat 32 a) (h9 : v9 (ix2 (0 : Fin 1) n) = BitVec.ofNat 32 b) :
    k0_pay1 (F := Ideal) v5 v9 v22 v25 (ix3 (0 : Fin 1) d n)
      = v22 (ix3 (0 : Fin 1) (⟨d.val * 64 + b, row_lt d b hb⟩ : Fin 768) (⟨a, ha⟩ : Fin 64))
        + v25 (ix3 (0 : Fin 1) (⟨d.val * 64 + b, row_lt d b hb⟩ : Fin 768) (⟨a, ha⟩ : Fin 64)) := by
  unfold k0_pay1
  dsimp only
  refine (shapeCast_ab_1ab_apply _ _ (0 : Fin 1) d n).trans ?_
  refine (lane_sum _ _ _ _ d n).trans ?_
  refine (Finset.sum_congr rfl fun k _ => ?_).trans
    (Cert.Lib.sum_mul_onehot_val (fun k : Fin 64 =>
      v22 (ix3 (0 : Fin 1) (⟨d.val * 64 + k.val, row_lt d k.val k.isLt⟩ : Fin 768) (⟨a, ha⟩ : Fin 64))
        + v25 (ix3 (0 : Fin 1) (⟨d.val * 64 + k.val, row_lt d k.val k.isLt⟩ : Fin 768) (⟨a, ha⟩ : Fin 64))) b hb)
  refine (mulf_apply _ _ _).trans ?_
  refine congrArg₂ (fun x y : EReal => x * y) ?_ ?_
  · refine (reshape_apply _ _ d k n).trans ?_
    refine (addf_apply _ _ _).trans ?_
    refine congrArg₂ (fun x y : EReal => x + y) ?_ ?_
    · refine (dot_onehot _ _ _ n a ha fun k' => onehot_apply v5 n a ha h5 k' _ _ _ _ _).trans ?_
      exact shapeCast_1ab_ab_apply v22 _ _ _
    · refine (dot_onehot _ _ _ n a ha fun k' => onehot_apply v5 n a ha h5 k' _ _ _ _ _).trans ?_
      exact shapeCast_1ab_ab_apply v25 _ _ _
  · refine (bcast_apply _ _ d k n).trans ?_
    refine (shapeCast_ab_1ab_apply _ _ (0 : Fin 1) k n).trans ?_
    exact onehot_apply v9 n b hb h9 k _ _ _ _ _

end Cert.KernelIdeal.Pay

end
-- ==== Proof.Spec.lean ====
/-
  The function both programs compute: a per-head codebook lookup. The output has one row per (b, n) and 768 = 64 × 12
  columns; column j belongs to head j / 12 and feature j % 12, and holds the feature of the codebook row that the
  index entry (b, n, head) names. The index is read modulo the codebook size, which changes nothing for an index in
  range and makes the function total.
-/
import Idealize.ShloMosaic.PureOps.Ideal
import Idealize.ShloMosaic.Lib.ValueIdx

noncomputable section

namespace Cert.Spec

open Idealize.ShloMosaic Idealize.ShloMosaic.ValueIdx

/-- Column j of 768 = 64 heads × 12 features lies in head j / 12 < 64. -/
theorem head_lt (j : Fin 768) : j.val / 12 < 64 := by have := j.isLt; omega

/-- Column j holds feature j % 12 < 12. -/
theorem feat_lt (j : Fin 768) : j.val % 12 < 12 := Nat.mod_lt _ (by decide)

/-- The head of a column. -/
def headOf (j : Fin 768) : Fin 64 := ⟨j.val / 12, head_lt j⟩

/-- The feature of a column. -/
def featOf (j : Fin 768) : Fin 12 := ⟨j.val % 12, feat_lt j⟩

/-- The codebook row a word names, modulo the codebook size 4096. -/
def rowOf (w : BitVec 32) : Fin 4096 := ⟨w.toNat % 4096, Nat.mod_lt _ (by decide)⟩

/-- The lookup: entry (b, n, j) is feature j % 12 of row idx (b, n, j / 12) of head j / 12's codebook. -/
def G (idx : IVec ⟨3, ![64, 2048, 64]⟩ 32) (vals : FVec Ideal ⟨3, ![64, 4096, 12]⟩ .f32) :
    FVec Ideal ⟨3, ![64, 2048, 768]⟩ .f32 := fun i =>
  vals (ix3 (headOf (i 2)) (rowOf (idx (ix3 (i 0) (i 1) (headOf (i 2))))) (featOf (i 2)))

theorem G_apply (idx : IVec ⟨3, ![64, 2048, 64]⟩ 32) (vals : FVec Ideal ⟨3, ![64, 4096, 12]⟩ .f32)
    (b : Fin 64) (n : Fin 2048) (j : Fin 768) :
    G idx vals (ix3 b n j) = vals (ix3 (headOf j) (rowOf (idx (ix3 b n (headOf j)))) (featOf j)) := rfl

end Cert.Spec

end
-- ==== Proof.KValue.lean ====
/-
  The kernel's result, element by element. Grid point t handles positions 512 t … 512 t + 511: its two digit blocks
  are columns 512 t … of the digit arrays, its table blocks are the whole tables, and its output block is columns
  512 t … of the output array. With the digits a = idx / 64 and b = idx % 64 of an index in range, the head's
  arithmetic picks table entry (head, feature * 64 + b, a), which is the codebook's entry (head, a * 64 + b, feature)
  = (head, idx, feature); the residual table adds zero. The host tail moves entry (head, feature, position) of the
  output array to (position / 2048, position % 2048, head * 12 + feature).
-/
import proofs.«400585_j86663850098809_3_alg».proof.Proof.Gen.KernelIdeal.Frame
import proofs.«400585_j86663850098809_3_alg».proof.Proof.BlockOut
import proofs.«400585_j86663850098809_3_alg».proof.Proof.KPrefix
import proofs.«400585_j86663850098809_3_alg».proof.Proof.Payload
import proofs.«400585_j86663850098809_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen Cert.KernelIdeal.Prefix Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-- Where each window's block sits at grid point t: the digit blocks and the output block at column block t, the
    table blocks at the origin. -/
theorem idx_facts : ∀ t : Fin cfg0.N,
    win0_0.index t 0 = 0 ∧ win0_0.index t 1 = t.val ∧ win0_1.index t 0 = 0 ∧ win0_1.index t 1 = t.val
      ∧ win0_2.index t 0 = 0 ∧ win0_2.index t 1 = 0 ∧ win0_2.index t 2 = 0
      ∧ win0_3.index t 0 = 0 ∧ win0_3.index t 1 = 0 ∧ win0_3.index t 2 = 0
      ∧ win0_4.index t 0 = 0 ∧ win0_4.index t 1 = 0 ∧ win0_4.index t 2 = t.val :=
  (by decide +kernel : ∀ t : Fin grid0.N, _)

/-- Lane n of grid point t is position 512 t + n < 131072. -/
theorem pos_lt (t : Fin cfg0.N) (n : Fin 512) : t.val * 512 + n.val < 131072 := by
  have h : t.val < 256 := lt_of_lt_of_eq t.isLt N_0
  have := n.isLt; omega

/-- The position of lane n at grid point t. -/
def posOf (t : Fin cfg0.N) (n : Fin 512) : Fin 131072 := ⟨t.val * 512 + n.val, pos_lt t n⟩

/-- The high-digit block at point t is columns 512 t … of the high-digit array. -/
theorem iblk0_apply (c : Dev nD) (t : Fin cfg0.N) (h : Fin 64) (n : Fin 512) :
    (iblk m c 0 t : Vec Ideal S64x512 .i32) (ix2 h n) = (V m c main_v2 : IVec S64x131072 32) (ix2 h (posOf t n)) := by
  obtain ⟨e0, e1, -⟩ := idx_facts t
  unfold iblk
  rw [View.read_apply]
  show V m c main_v2 _ = V m c main_v2 _
  congr 1
  funext a
  apply Fin.ext
  match a with
  | ⟨0, _⟩ => show win0_0.index t 0 * 64 + 1 * h.val = h.val; rw [e0]; omega
  | ⟨1, _⟩ => show win0_0.index t 1 * 512 + 1 * n.val = t.val * 512 + n.val; rw [e1]; omega

/-- The low-digit block at point t is columns 512 t … of the low-digit array. -/
theorem iblk1_apply (c : Dev nD) (t : Fin cfg0.N) (h : Fin 64) (n : Fin 512) :
    (iblk m c 1 t : Vec Ideal S64x512 .i32) (ix2 h n) = (V m c main_v3 : IVec S64x131072 32) (ix2 h (posOf t n)) := by
  obtain ⟨-, -, e0, e1, -⟩ := idx_facts t
  unfold iblk
  rw [View.read_apply]
  show V m c main_v3 _ = V m c main_v3 _
  congr 1
  funext a
  apply Fin.ext
  match a with
  | ⟨0, _⟩ => show win0_1.index t 0 * 64 + 1 * h.val = h.val; rw [e0]; omega
  | ⟨1, _⟩ => show win0_1.index t 1 * 512 + 1 * n.val = t.val * 512 + n.val; rw [e1]; omega

/-- The first table block is the whole first table at every point. -/
theorem iblk2_apply (c : Dev nD) (t : Fin cfg0.N) (h : Fin 64) (r : Fin 768) (k : Fin 64) :
    (iblk m c 2 t : Vec Ideal S64x768x64 .bf16) (ix3 h r k) = (V m c main_v7 : FVec Ideal S64x768x64 .bf16) (ix3 h r k) := by
  obtain ⟨-, -, -, -, e0, e1, e2, -⟩ := idx_facts t
  unfold iblk
  rw [View.read_apply]
  show V m c main_v7 _ = V m c main_v7 _
  congr 1
  funext a
  apply Fin.ext
  match a with
  | ⟨0, _⟩ => show win0_2.index t 0 * 64 + 1 * h.val = h.val; rw [e0]; omega
  | ⟨1, _⟩ => show win0_2.index t 1 * 768 + 1 * r.val = r.val; rw [e1]; omega
  | ⟨2, _⟩ => show win0_2.index t 2 * 64 + 1 * k.val = k.val; rw [e2]; omega

/-- The second table block is the whole second table at every point. -/
theorem iblk3_apply (c : Dev nD) (t : Fin cfg0.N) (h : Fin 64) (r : Fin 768) (k : Fin 64) :
    (iblk m c 3 t : Vec Ideal S64x768x64 .bf16) (ix3 h r k) = (V m c main_v10 : FVec Ideal S64x768x64 .bf16) (ix3 h r k) := by
  obtain ⟨-, -, -, -, -, -, -, e0, e1, e2, -⟩ := idx_facts t
  unfold iblk
  rw [View.read_apply]
  show V m c main_v10 _ = V m c main_v10 _
  congr 1
  funext a
  apply Fin.ext
  match a with
  | ⟨0, _⟩ => show win0_3.index t 0 * 64 + 1 * h.val = h.val; rw [e0]; omega
  | ⟨1, _⟩ => show win0_3.index t 1 * 768 + 1 * r.val = r.val; rw [e1]; omega
  | ⟨2, _⟩ => show win0_3.index t 2 * 64 + 1 * k.val = k.val; rw [e2]; omega

/-- The output array the kernel leaves: entry (head, feature, position) is the codebook's entry
    (head, index at (position, head), feature). -/
def outArr (c : Dev nD) : Vec Ideal S64x12x131072 .f32 := fun i =>
  valArr m c (ix3 (i 0) (Cert.Spec.rowOf (idxArr m c (ix3 (batchOf (i 2)) (placeOf (i 2)) (i 0)))) (i 1))

/-- An index below 4096 is its two base-64 digits. -/
theorem digits (w : BitVec 32) (hw : w.toNat < 4096) :
    w.toNat / 64 < 64 ∧ w.toNat % 64 < 64 ∧ w.toNat / 64 * 64 + w.toNat % 64 = w.toNat % 4096 := by
  omega

/-- One element of the block function, from the two digits at its head and lane. -/
theorem block_elem (x0 x1 : Vec Ideal S64x512 .i32) (x2 x3 : Vec Ideal S64x768x64 .bf16) (h : Fin 64) (d : Fin 12)
    (n : Fin 512) (a b : ℕ) (ha : a < 64) (hb : b < 64)
    (h0 : x0 (ix2 h n) = BitVec.ofNat 32 a) (h1 : x1 (ix2 h n) = BitVec.ofNat 32 b) :
    Block.blockOut x0 x1 x2 x3 (ix3 h d n)
      = x2 (ix3 h (⟨d.val * 64 + b, Pay.row_lt d b hb⟩ : Fin 768) (⟨a, ha⟩ : Fin 64))
        + x3 (ix3 h (⟨d.val * 64 + b, Pay.row_lt d b hb⟩ : Fin 768) (⟨a, ha⟩ : Fin 64)) := by
  unfold Block.blockOut
  exact Pay.pay_apply _ _ _ _ d n a b ha hb h0 h1

/-- Element (head, feature, lane) of grid point t's output block sits at position 512 t + lane of the output array. -/
theorem emb4 (t : Fin cfg0.N) (h : Fin 64) (d : Fin 12) (n : Fin 512) :
    (((cfg0.win 4).blk t).view.emb (ix3 h d n) : S64x12x131072.Idx) = ix3 h d (posOf t n) := by
  obtain ⟨-, -, -, -, -, -, -, -, -, -, e0, e1, e2⟩ := idx_facts t
  funext a
  apply Fin.ext
  match a with
  | ⟨0, _⟩ => show win0_4.index t 0 * 64 + 1 * h.val = h.val; rw [e0]; omega
  | ⟨1, _⟩ => show win0_4.index t 1 * 12 + 1 * d.val = d.val; rw [e1]; omega
  | ⟨2, _⟩ => show win0_4.index t 2 * 512 + 1 * n.val = t.val * 512 + n.val; rw [e2]; omega

/-- What grid point t writes back is its block of the output array. -/
theorem flushed_eq (c : Dev nD) (hr : ∀ j, (idxArr m c j).toNat < 4096)
    (hfin : ∀ i, ∃ x : ℝ, valArr m c i = (x : EReal)) (t : Fin cfg0.N) :
    (dats m 0 c).flushed 4 t = ((cfg0.win 4).blk t).view.read (Elt Ideal) (outArr m c) := by
  show (cfg0.win 4).cut (grid0.coords t) ((dats m 0 c).after 4 t) = _
  rw [after0_4]
  unfold outsAt0
  rw [Block.out_eq]
  funext y
  show Block.blockOut (iblk m c 0 t) (iblk m c 1 t) (iblk m c 2 t) (iblk m c 3 t) y
    = outArr m c (((cfg0.win 4).blk t).view.emb y)
  obtain ⟨h, d, n, rfl⟩ : ∃ (h : Fin 64) (d : Fin 12) (n : Fin 512), y = ix3 h d n := ⟨y 0, y 1, y 2, eq_ix3 y⟩
  obtain ⟨ha, hb, hab⟩ := digits (idxArr m c (ix3 (batchOf (posOf t n)) (placeOf (posOf t n)) h)) (hr _)
  refine (block_elem (iblk m c 0 t) (iblk m c 1 t) (iblk m c 2 t) (iblk m c 3 t) h d n _ _ ha hb
    ((iblk0_apply m c t h n).trans (V_hi m c hr h (posOf t n)))
    ((iblk1_apply m c t h n).trans (V_lo m c hr h (posOf t n)))).trans ?_
  rw [iblk2_apply, iblk3_apply, V_thi, V_tlo m c hfin, add_zero, emb4]
  unfold outArr
  congr 1
  funext a
  apply Fin.ext
  match a with
  | ⟨0, _⟩ => rfl
  | ⟨1, _⟩ =>
    show (idxArr m c (ix3 (batchOf (posOf t n)) (placeOf (posOf t n)) h)).toNat / 64 * 64 + (d.val * 64 + (idxArr m c (ix3 (batchOf (posOf t n)) (placeOf (posOf t n)) h)).toNat % 64) % 64 = (idxArr m c (ix3 (batchOf (posOf t n)) (placeOf (posOf t n)) h)).toNat % 4096
    omega
  | ⟨2, _⟩ =>
    show (d.val * 64 + (idxArr m c (ix3 (batchOf (posOf t n)) (placeOf (posOf t n)) h)).toNat % 64) / 64 = d.val
    omega

/-- Every position lies in some grid point's block: position p in block p / 512. -/
theorem cover4 (i : S64x12x131072.Idx) :
    ∃ t : Fin cfg0.N, (cfg0.win 4).flush t = true ∧ i ∈ ((cfg0.win 4).blk t).view.set := by
  have h2 : (i 2).val < 131072 := (i 2).isLt
  have ht : (i 2).val / 512 < cfg0.N := by rw [show cfg0.N = 256 from N_0]; omega
  refine ⟨⟨(i 2).val / 512, ht⟩, flush0_4 _, ?_⟩
  obtain ⟨-, -, -, -, -, -, -, -, -, -, e0, e1, e2⟩ := idx_facts ⟨(i 2).val / 512, ht⟩
  show i ∈ ((View.whole main_v11).slice (win0_4.rect ⟨(i 2).val / 512, ht⟩)).set
  rw [View.set_slice_whole, Rect.mem_set_unit]
  intro a
  have h0 : (i 0).val < 64 := (i 0).isLt
  have h1 : (i 1).val < 12 := (i 1).isLt
  match a with
  | ⟨0, _⟩ =>
    show win0_4.index ⟨(i 2).val / 512, ht⟩ 0 * 64 ≤ (i 0).val ∧ (i 0).val < win0_4.index ⟨(i 2).val / 512, ht⟩ 0 * 64 + 64
    rw [e0]; omega
  | ⟨1, _⟩ =>
    show win0_4.index ⟨(i 2).val / 512, ht⟩ 1 * 12 ≤ (i 1).val ∧ (i 1).val < win0_4.index ⟨(i 2).val / 512, ht⟩ 1 * 12 + 12
    rw [e1]; omega
  | ⟨2, _⟩ =>
    show win0_4.index ⟨(i 2).val / 512, ht⟩ 2 * 512 ≤ (i 2).val ∧ (i 2).val < win0_4.index ⟨(i 2).val / 512, ht⟩ 2 * 512 + 512
    rw [e2]; show (i 2).val / 512 * 512 ≤ (i 2).val ∧ (i 2).val < (i 2).val / 512 * 512 + 512; omega

/-- The output array after the call. -/
theorem final4 (c : Dev nD) (hr : ∀ j, (idxArr m c j).toNat < 4096)
    (hfin : ∀ i, ∃ x : ℝ, valArr m c i = (x : EReal)) :
    (dats m 0 c).arrAt 4 cfg0.N = outArr m c :=
  (dats m 0 c).arrAt_eq_of_cover 4 (outArr m c) (fun t _ => flushed_eq m c hr hfin t) (cover4)

/-- The result buffer after the host tail: entry (batch, place, column) is output entry
    (column / 12, column % 12, batch * 2048 + place). -/
theorem tail_eq (c : Dev nD) (hr : ∀ j, (idxArr m c j).toNat < 4096)
    (hfin : ∀ i, ∃ x : ℝ, valArr m c i = (x : EReal)) :
    Pipeline.afterTail₀ cfgs (dats m) 0 (V0 m) [hostOps1] c main_v13 = Cert.Spec.G (idxArr m c) (valArr m c) := by
  unfold Pipeline.afterTail₀
  show StableHlo.after hostOps1 _ (Proc.devRef .tc main_v13) = _
  after_results
  funext i
  show shapeCast S64x2048x768 (transpose S131072x64x12 [2, 0, 1]
      (Pipeline.withArrays (cfgs 0).spec c (V0 m c) (fun w => (dats m 0 c).arrAt w (cfgs 0).N) (Proc.tc.devRef main_v11))
      transposes_S64x12x131072_S131072x64x12_2_0_1) shapeCasts_S131072x64x12_S64x2048x768 i = _
  have eA : Pipeline.withArrays (cfgs 0).spec c (V0 m c) (fun w => (dats m 0 c).arrAt w (cfgs 0).N)
      (Proc.tc.devRef main_v11) = outArr m c :=
    (Pipeline.withArrays_arr spec0 launch0.win.arr_inj c _ _ 4).trans (final4 m c hr hfin)
  rw [eA]
  obtain ⟨b, n, j, rfl⟩ : ∃ (b : Fin 64) (n : Fin 2048) (j : Fin 768), i = ix3 b n j := ⟨i 0, i 1, i 2, eq_ix3 i⟩
  have hb : b.val < 64 := b.isLt
  have hn : n.val < 2048 := n.isLt
  have hj : j.val < 768 := j.isLt
  have hp : b.val * 2048 + n.val < 131072 := by omega
  rw [shapeCast_apply _ shapeCasts_S131072x64x12_S64x2048x768 (ix3 b n j)
    (ix3 (⟨b.val * 2048 + n.val, hp⟩ : Fin 131072) (Cert.Spec.headOf j) (Cert.Spec.featOf j))
    (by
      rw [Shape.rowMajor_val_three, Shape.rowMajor_val_three]
      show ((b.val * 2048 + n.val) * 64 + j.val / 12) * 12 + j.val % 12 = (b.val * 2048 + n.val) * 768 + j.val
      omega)]
  rw [transpose_apply _ _ transposes_S64x12x131072_S131072x64x12_2_0_1 _
    (ix3 (Cert.Spec.headOf j) (Cert.Spec.featOf j) (⟨b.val * 2048 + n.val, hp⟩ : Fin 131072))
    (fun a => match a with | ⟨0, _⟩ => rfl | ⟨1, _⟩ => rfl | ⟨2, _⟩ => rfl)]
  rw [Cert.Spec.G_apply]
  unfold outArr
  have eb : batchOf (⟨b.val * 2048 + n.val, hp⟩ : Fin 131072) = b := Fin.ext (by show (b.val * 2048 + n.val) / 2048 = b.val; omega)
  have en : placeOf (⟨b.val * 2048 + n.val, hp⟩ : Fin 131072) = n := Fin.ext (by show (b.val * 2048 + n.val) % 2048 = n.val; omega)
  show valArr m c (ix3 (Cert.Spec.headOf j)
      (Cert.Spec.rowOf (idxArr m c (ix3 (batchOf (⟨b.val * 2048 + n.val, hp⟩ : Fin 131072))
        (placeOf (⟨b.val * 2048 + n.val, hp⟩ : Fin 131072)) (Cert.Spec.headOf j)))) (Cert.Spec.featOf j)) = _
  rw [eb, en]

/-- The kernel program's run: it ends with the lookup in its result buffer and its arguments as launched. -/
theorem run (hpre : ∀ c : Dev nD, (∀ j, (idxArr m c j).toNat < 4096) ∧ (∀ i, ∃ x : ℝ, valArr m c i = (x : EReal))) :
    θ_run defs (onTc (τ := τ) (main (F := Ideal))) ⟨m, fun _ => 0, ρ⟩ (fun r => ∀ c : Dev nD,
      r.2.mem ((c.tc : Thread nD τ).loc main_v13) = Cert.Spec.G (idxArr m c) (valArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v13 (Pipeline.mem_restRefs_of main_v13 (by decide) (by decide))).trans
        (tail_eq m c (hpre c).1 (hpre c).2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference is the lookup: its gather reads row (head, index) of the codebook, the head column an iota and the
  index column the argument, both left unchanged by the wrap of negative entries and by the clamp when in range.
-/
import proofs.«400585_j86663850098809_3_alg».proof.Proof.Gen.ReferenceIdeal.Read
import proofs.«400585_j86663850098809_3_alg».proof.Proof.Spec
import proofs.«400585_j86663850098809_3_alg».proof.Proof.LibWordDiv
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## The gather at an index -/

/-- The reference's gather record: operand axes 0 (head) and 1 (row) are collapsed and named by the two components
of the start index, axis 2 (feature) is the offset axis, the whole slice of 12. -/
abbrev gd : GatherDims S64x4096x12 S64x2048x64x2 S64x2048x64x12 :=
  gather_S64x4096x12_S64x2048x64x2_S64x2048x64x12_3_01_n_n_01_3_1112

/-- The start-indices index (b, n, h, c): where result index (b, n, h, z) reads component c of its start index. -/
abbrev siAt (y : S64x2048x64x12.Idx) (c : Fin 2) : S64x2048x64x2.Idx :=
  ix4 (n0 := 64) (n1 := 2048) (n2 := 64) (n3 := 2) (y 0) (y 1) (y 2) c

/-- The record's start-indices index is that one: the three batch coordinates, and the component on the last axis. -/
theorem siIdx_eq (y : S64x2048x64x12.Idx) (c : Fin 2) : gd.siIdx y c = siAt y c := by
  funext b; refine Fin.ext ?_
  match b with
  | ⟨0, _⟩ => rfl
  | ⟨1, _⟩ => rfl
  | ⟨2, _⟩ => rfl
  | ⟨3, _⟩ => rfl

/-- The gather at (b, n, h, z): the operand at (head, row, z), where head and row are the two components of the
start index at (b, n, h), each read signed and clamped into its axis (the slice has size one on both). -/
theorem gather_apply {α : Type} (x : S64x4096x12.Idx → α) (si : IVec S64x2048x64x2 32) (y : S64x2048x64x12.Idx)
    (h : Fin 64) (r : Fin 4096)
    (hh : min (si (siAt y 0)).toInt.toNat 63 = h.val) (hrow : min (si (siAt y 1)).toInt.toNat 4095 = r.val) :
    Host.gather gd x si y = x (ix3 (n0 := 64) (n1 := 4096) (n2 := 12) h r (y 3)) := by
  unfold Host.gather
  congr 1
  funext a
  refine Fin.ext ?_
  match a with
  | ⟨0, _⟩ =>
    show gd.start y si 0 + gd.batchCoord y 0 + gd.offCoord y 0 = h.val
    rw [GatherDims.batchCoord_eq_zero gd y 0 List.not_mem_nil,
      GatherDims.offCoord_eq_zero gd y 0 (fun h => ((GatherDims.mem_sKept gd 0).mp h).1 List.mem_cons_self)]
    unfold GatherDims.start
    rw [dif_pos (show (0 : Fin 3) ∈ gd.startIndexMap from List.mem_cons_self)]
    exact (congrArg (fun z => min (si z).toInt.toNat 63) (siIdx_eq y _)).trans hh
  | ⟨1, _⟩ =>
    show gd.start y si 1 + gd.batchCoord y 1 + gd.offCoord y 1 = r.val
    rw [GatherDims.batchCoord_eq_zero gd y 1 List.not_mem_nil,
      GatherDims.offCoord_eq_zero gd y 1 (fun h => ((GatherDims.mem_sKept gd 1).mp h).1
        (List.mem_cons_of_mem _ List.mem_cons_self))]
    unfold GatherDims.start
    rw [dif_pos (show (1 : Fin 3) ∈ gd.startIndexMap from List.mem_cons_of_mem _ List.mem_cons_self)]
    exact (congrArg (fun z => min (si z).toInt.toNat 4095) (siIdx_eq y _)).trans hrow
  | ⟨2, _⟩ =>
    show gd.start y si 2 + gd.batchCoord y 2 + gd.offCoord y 2 = (y 3).val
    have h2 : gd.offCoord y 2 = (y 3).val := rfl
    rw [GatherDims.batchCoord_eq_zero gd y 2 List.not_mem_nil, h2]
    unfold GatherDims.start
    rw [dif_neg (show (2 : Fin 3) ∉ gd.startIndexMap by decide)]
    omega

/-! ## The start indices: the concatenation of the head column and the index column -/

/-- The index (b, n, h, 0) of a column [64, 2048, 64, 1]. -/
abbrev colAt (y : S64x2048x64x12.Idx) : S64x2048x64x1.Idx :=
  ix4 (n0 := 64) (n1 := 2048) (n2 := 64) (n3 := 1) (y 0) (y 1) (y 2) 0

/-- Component 0 of the start index is the head column's entry. -/
theorem cat_zero (idx : IVec S64x2048x64 32) (y : S64x2048x64x12.Idx) :
    Read.val_main_v15 (F := Ideal) idx (siAt y 0) = Read.val_main_v13 (F := Ideal) (colAt y) := by
  unfold Read.val_main_v15
  exact concatenate_pair_apply_left (t := S64x2048x64x2) (s₁ := S64x2048x64x1) (s₂ := S64x2048x64x1) 3 _ _ _ (siAt y 0) rfl (colAt y) (fun b => match b with
    | ⟨0, _⟩ => rfl
    | ⟨1, _⟩ => rfl
    | ⟨2, _⟩ => rfl
    | ⟨3, _⟩ => rfl)

/-- Component 1 of the start index is the index column's entry. -/
theorem cat_one (idx : IVec S64x2048x64 32) (y : S64x2048x64x12.Idx) :
    Read.val_main_v15 (F := Ideal) idx (siAt y 1) = Read.val_main_v14 (F := Ideal) idx (colAt y) := by
  unfold Read.val_main_v15
  exact concatenate_pair_apply_right (t := S64x2048x64x2) (s₁ := S64x2048x64x1) (s₂ := S64x2048x64x1) 3 _ _ _ (siAt y 1) rfl rfl (colAt y) (fun b => match b with
    | ⟨0, _⟩ => fun _ => rfl
    | ⟨1, _⟩ => fun _ => rfl
    | ⟨2, _⟩ => fun _ => rfl
    | ⟨3, _⟩ => fun h => absurd rfl h) rfl

/-- The head column holds the head, as a word: the iota, which the wrap of negative entries leaves as it is. -/
theorem head_col (i : S64x2048x64x1.Idx) :
    Read.val_main_v13 (F := Ideal) i = BitVec.ofNat 32 (i 2).val := by
  have hlt : (i 2).val < 64 := (i 2).isLt
  rw [Read.val_main_v13_apply, Read.val_main_v12_apply, Read.val_main_v6_apply, Read.val_main_v3_apply,
    Read.val_main_v5_apply, Read.val_main_v2_apply, Read.val_main_v4_apply, Read.val_main_c_apply,
    Read.val_main_c_0_apply, Read.val_main_v1_apply, Read.val_main_v0_apply]
  exact Cert.LibWordDiv.wrapW_eq (BitVec.ofNat 32 (i 2).val) 64#32
    (by rw [Cert.LibWordDiv.toNat_ofNat_of_lt _ (by omega)]; omega)

/-- The index column holds the index: the wrap of negative entries leaves a word below 4096 as it is. -/
theorem idx_col (idx : IVec S64x2048x64 32) (hr : ∀ j, (idx j).toNat < 4096) (i : S64x2048x64x1.Idx) :
    Read.val_main_v14 (F := Ideal) idx i = idx (Read.idx_main_v14 i) := by
  rw [Read.val_main_v14_apply, Read.val_main_v11_apply, Read.val_main_v8_apply, Read.val_main_v10_apply,
    Read.val_main_v7_apply, Read.val_main_v9_apply, Read.val_main_c_1_apply, Read.val_main_c_2_apply]
  exact Cert.LibWordDiv.wrapW_eq _ _ (by have := hr (Read.idx_main_v14 i); omega)

/-! ## The clamp -/

/-- A word whose value is at most the bound m < 2³¹, read signed and clamped into [0, m], is its value. -/
theorem clamp_eq (w : BitVec 32) (m : Nat) (hw : w.toNat ≤ m) (hm : m < 2 ^ 31) : min w.toInt.toNat m = w.toNat := by
  rw [BitVec.toNat_toInt_of_msb w (Cert.LibWordDiv.msb_false_of_lt (by omega))]
  exact Nat.min_eq_left hw

/-! ## The reference's value -/

/-- For indices in range the reference's result is the lookup. -/
theorem ref_eq (idx : IVec S64x2048x64 32) (vals : FVec Ideal S64x4096x12 .f32) (hr : ∀ j, (idx j).toNat < 4096) :
    Cert.ReferenceIdeal.Read.val_main_v17 (F := Ideal) idx vals = Cert.Spec.G idx vals := by
  funext i
  obtain ⟨b, n, j, rfl⟩ : ∃ (b : Fin 64) (n : Fin 2048) (j : Fin 768), i = ix3 b n j := ⟨i 0, i 1, i 2, eq_ix3 i⟩
  -- the reshape: flat position (b · 2048 + n) · 768 + j of the result is (b, n, j / 12, j % 12) of the gather's
  have hy : Read.idx_main_v17 (ix3 b n j)
      = ix4 (n0 := 64) (n1 := 2048) (n2 := 64) (n3 := 12) b n (Cert.Spec.headOf j) (Cert.Spec.featOf j) := by
    have hb := b.isLt; have hn := n.isLt; have hj := j.isLt
    funext a; refine Fin.ext ?_
    match a with
    | ⟨0, _⟩ => show ((b.val * 2048 + n.val) * 768 + j.val) / 1572864 = b.val; omega
    | ⟨1, _⟩ => show ((b.val * 2048 + n.val) * 768 + j.val) / 768 % 2048 = n.val; omega
    | ⟨2, _⟩ => show ((b.val * 2048 + n.val) * 768 + j.val) / 12 % 64 = j.val / 12; omega
    | ⟨3, _⟩ => show ((b.val * 2048 + n.val) * 768 + j.val) % 12 = j.val % 12; omega
  rw [Read.val_main_v17_apply, Cert.Spec.G_apply, hy]
  refine gather_apply vals (Read.val_main_v15 (F := Ideal) idx) _ (Cert.Spec.headOf j)
    (Cert.Spec.rowOf (idx (ix3 b n (Cert.Spec.headOf j)))) ?_ ?_
  · -- the head: the iota's entry h < 64, inside the axis
    have hh : (Cert.Spec.headOf j).val < 64 := (Cert.Spec.headOf j).isLt
    rw [cat_zero, head_col]
    show min (BitVec.ofNat 32 (Cert.Spec.headOf j).val).toInt.toNat 63 = (Cert.Spec.headOf j).val
    have ht := Cert.LibWordDiv.toNat_ofNat_of_lt (Cert.Spec.headOf j).val (by omega)
    rw [clamp_eq _ 63 (by omega) (by decide), ht]
  · -- the row: the index entry at (b, n, h), below 4096, inside the axis
    have hi : Read.idx_main_v14 (colAt (ix4 (n0 := 64) (n1 := 2048) (n2 := 64) (n3 := 12) b n (Cert.Spec.headOf j)
        (Cert.Spec.featOf j))) = ix3 b n (Cert.Spec.headOf j) := by
      funext a
      match a with
      | ⟨0, _⟩ => rfl
      | ⟨1, _⟩ => rfl
      | ⟨2, _⟩ => rfl
    have hw := hr (ix3 b n (Cert.Spec.headOf j))
    rw [cat_one, idx_col idx hr, hi, clamp_eq _ 4095 (by omega) (by decide)]
    show _ = (idx (ix3 b n (Cert.Spec.headOf j))).toNat % 4096
    rw [Nat.mod_eq_of_lt hw]

end Cert.ReferenceIdeal.RefValue

end
-- ==== Proof.lean ====
/-
  A multi-head codebook lookup: out (b, n, h * 12 + d) = values (h, idx (b, n, h), d), for indices 0 ≤ idx < 4096 and
  finite values.

  The kernel splits each index into base-64 digits, idx = 64 a + b. Per head it multiplies the codebook, re-laid as
  (feature * 64 + low digit, high digit) and split into a leading part and a residual, by the one-hot column of a, and
  then sums the product with the one-hot of b over the low digit. On the extended reals a one-hot sum has one term,
  so the result is the re-laid codebook's entry (d * 64 + b, a), which is values (h, 64 a + b, d); the residual is
  x - x = 0 on finite values. The reference gathers row (h, idx) of the codebook; for an index in range neither its
  wrap of negative entries nor the gather's clamp changes the row. Both are the function Spec.G of the arguments.

  The frames of the two kernel programs are generated; the reference's frame is its generated run with the result
  dropped; no operation was rewritten by the idealization, so there is nothing to preserve.
-/
import proofs.«400585_j86663850098809_3_alg».proof.Defs
import proofs.«400585_j86663850098809_3_alg».proof.Proof.Gen.Kernel
import proofs.«400585_j86663850098809_3_alg».proof.Proof.Gen.Kernel.Skeleton
import proofs.«400585_j86663850098809_3_alg».proof.Proof.Gen.Kernel.Loops
import proofs.«400585_j86663850098809_3_alg».proof.Proof.Gen.Kernel.Launch
import proofs.«400585_j86663850098809_3_alg».proof.Proof.Gen.Kernel.Points
import proofs.«400585_j86663850098809_3_alg».proof.Proof.Gen.Kernel.Frame
import proofs.«400585_j86663850098809_3_alg».proof.Proof.Gen.KernelIdeal
import proofs.«400585_j86663850098809_3_alg».proof.Proof.Gen.KernelIdeal.Skeleton
import proofs.«400585_j86663850098809_3_alg».proof.Proof.Gen.KernelIdeal.Loops
import proofs.«400585_j86663850098809_3_alg».proof.Proof.Gen.KernelIdeal.Launch
import proofs.«400585_j86663850098809_3_alg».proof.Proof.Gen.KernelIdeal.Points
import proofs.«400585_j86663850098809_3_alg».proof.Proof.Gen.KernelIdeal.Frame
import proofs.«400585_j86663850098809_3_alg».proof.Proof.Gen.ReferenceIdeal
import proofs.«400585_j86663850098809_3_alg».proof.Proof.Gen.Pre_finite_inputs
import proofs.«400585_j86663850098809_3_alg».proof.Proof.Gen.ReferenceIdeal.Run
import proofs.«400585_j86663850098809_3_alg».proof.Proof.Gen.ReferenceIdeal.Read
import proofs.«400585_j86663850098809_3_alg».proof.Proof.PreFacts
import proofs.«400585_j86663850098809_3_alg».proof.Proof.KValue
import proofs.«400585_j86663850098809_3_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel [Cert.Kernel.Facts] [Cert.Pre_finite_inputs.Facts] : Cert.frame_Kernel :=
  fun m ρ _ => Cert.Kernel.Gen.frame m ρ

/-- So does the kernel program read over the extended reals. -/
theorem frame_kernelIdeal [Cert.KernelIdeal.Facts] [Cert.Pre_finite_inputs.Facts] : Cert.frame_KernelIdeal :=
  fun m ρ _ => Cert.KernelIdeal.Gen.frame m ρ

/-- The reference runs and leaves its arguments as launched: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments, with the indices in range and the values finite, both programs end
    with the lookup in their result. -/
theorem algebraic [Cert.KernelIdeal.Facts] [Cert.ReferenceIdeal.Facts] [Cert.Pre_finite_inputs.Facts] :
    Cert.algebraic_KernelIdeal_ReferenceIdeal := by
  intro m ρ m' ρ' hpre hagree
  have hdec : ∀ c : Dev Cert.KernelIdeal.nD,
      (∀ j, (Cert.KernelIdeal.Prefix.idxArr m c j).toNat < 4096)
        ∧ (∀ i, ∃ x : ℝ, Cert.KernelIdeal.Prefix.valArr m c i = (x : EReal)) := fun c =>
    ⟨(Cert.PreFacts.decode _ _ (hpre c)).2, (Cert.PreFacts.decode _ _ (hpre c)).1⟩
  refine ⟨fun c => Cert.Spec.G (Cert.KernelIdeal.Prefix.idxArr m c) (Cert.KernelIdeal.Prefix.valArr m c),
    Cert.KernelIdeal.KValue.run m ρ hdec, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v17_eq _ _).trans
    (Cert.ReferenceIdeal.RefValue.ref_eq _ _ (hdec c).1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
